-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 64#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x256 : Shape := ⟨2, ![262144, 256]⟩
abbrev S262144 : Shape := ⟨1, ![262144]⟩
abbrev S1x262144 : Shape := ⟨2, ![1, 262144]⟩
abbrev S2x64x256 : Shape := ⟨3, ![2, 64, 256]⟩
abbrev S2x1x1 : Shape := ⟨3, ![2, 1, 1]⟩
abbrev S1x8192 : Shape := ⟨2, ![1, 8192]⟩
abbrev S8192x256 : Shape := ⟨2, ![8192, 256]⟩
abbrev S1x64x256 : Shape := ⟨3, ![1, 64, 256]⟩
abbrev S1x1x1 : Shape := ⟨3, ![1, 1, 1]⟩
abbrev S64x256 : Shape := ⟨2, ![64, 256]⟩
abbrev S1x1 : Shape := ⟨2, ![1, 1]⟩
abbrev S64x8192 : Shape := ⟨2, ![64, 8192]⟩
abbrev S256 : Shape := ⟨1, ![256]⟩
abbrev S1x256 : Shape := ⟨2, ![1, 256]⟩
abbrev S1 : Shape := ⟨1, ![1]⟩
abbrev S_ : Shape := ⟨0, ![]⟩
abbrev S64 : Shape := ⟨1, ![64]⟩
abbrev S262144x1 : Shape := ⟨2, ![262144, 1]⟩
abbrev S64x1 : Shape := ⟨2, ![64, 1]⟩

abbrev nBuf : Space → Nat
  | .hbm => 35
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1x262144, .i32⟩
  | .hbm, ⟨3, _⟩ => ⟨S2x64x256, .f32⟩
  | .hbm, ⟨4, _⟩ => ⟨S2x1x1, .f32⟩
  | .hbm, ⟨5, _⟩ => ⟨S_, .f32⟩
  | .hbm, ⟨6, _⟩ => ⟨S262144, .f32⟩
  | .hbm, ⟨7, _⟩ => ⟨S_, .f32⟩
  | .hbm, ⟨8, _⟩ => ⟨S64, .f32⟩
  | .hbm, ⟨9, _⟩ => ⟨S262144x1, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S1x64x256, .f32⟩
  | .hbm, ⟨15, _⟩ => ⟨S64x256, .f32⟩
  | .hbm, ⟨16, _⟩ => ⟨S1x64x256, .f32⟩
  | .hbm, ⟨17, _⟩ => ⟨S64x256, .f32⟩
  | .hbm, ⟨18, _⟩ => ⟨S64x256, .f32⟩
  | .hbm, ⟨19, _⟩ => ⟨S1x1x1, .f32⟩
  | .hbm, ⟨20, _⟩ => ⟨S_, .f32⟩
  | .hbm, ⟨21, _⟩ => ⟨S1x1x1, .f32⟩
  | .hbm, ⟨22, _⟩ => ⟨S_, .f32⟩
  | .hbm, ⟨23, _⟩ => ⟨S_, .f32⟩
  | .hbm, ⟨24, _⟩ => ⟨S64x256, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x8192, .i32⟩
  | .local _ .vmem, ⟨1, _⟩ => ⟨S1x8192, .i32⟩
  | .local _ .vmem, ⟨2, _⟩ => ⟨S8192x256, .f32⟩
  | .local _ .vmem, ⟨3, _⟩ => ⟨S8192x256, .f32⟩
  | .local _ .vmem, ⟨4, _⟩ => ⟨S1x64x256, .f32⟩
  | .local _ .vmem, ⟨5, _⟩ => ⟨S1x64x256, .f32⟩
  | .local _ .vmem, ⟨6, _⟩ => ⟨S1x1x1, .f32⟩
  | .local _ .vmem, ⟨7, _⟩ => ⟨S1x1x1, .f32⟩
  | .local _ .vmem, ⟨8, _⟩ => ⟨S64x256, .f32⟩
  | .local _ .vmem, ⟨9, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S1x262144 : S262144.ShapeCasts S1x262144
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S64x8192_d0_w32 : S64x8192.Iotas .tc 32 [0]
  broadcasts_S1x8192_S64x8192 : S1x8192.Broadcasts S64x8192
  natLt_1_32 : 1 < 32
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  reduces_S8192x256_S256 : S8192x256.Reduces [0] S256
  shapeCasts_S256_S1x256 : S256.ShapeCasts S1x256
  reduces_S1x256_S1 : S1x256.Reduces [1] S1
  shapeCasts_S1_S1x1 : S1.ShapeCasts S1x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  bcast_S_S262144 : S_.BroadcastsInDim S262144 (![] : Fin 0 → Fin S262144.rank)
  bcast_S_S64 : S_.BroadcastsInDim S64 (![] : Fin 0 → Fin S64.rank)
  bcast_S262144_S262144x1_0 : S262144.BroadcastsInDim S262144x1 (![0] : Fin 1 → Fin S262144x1.rank)
  slices_S2x64x256_S1x64x256_0_0_0 : S2x64x256.Slices ![0, 0, 0] S1x64x256
  slices_S2x64x256_S1x64x256_1_0_0 : S2x64x256.Slices ![1, 0, 0] S1x64x256
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  reducesTo_S64x256_S64_d1 : S64x256.ReducesTo [1] S64
  h_S_ : 0 < S_.numel
  bcast_S64_S64x1_0 : S64.BroadcastsInDim S64x1 (![0] : Fin 1 → Fin S64x1.rank)
  reducesTo_S64x1_S_d0_1 : S64x1.ReducesTo [0, 1] S_
  dot_S64x8192_S8192x256_S64x256_1_0_0_1_n_n_wf : DotDims.WF S64x8192 S8192x256 S64x256 [1] [0] [0] [1] [] []
  scatter_S64_S262144x1_S262144_n_0_0_1_wf : ScatterDims.WF S64 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x262144.size a
  hwx0_0 : ∀ i : grid0.Coords, EltTy.bits .i32 = 32 ∨ (Rect.block (s := S1x262144) S1x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S262144x256.size a
  hwx0_1 : ∀ i : grid0.Coords, EltTy.bits .f32 = 32 ∨ (Rect.block (s := S262144x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

abbrev win0_0 : Pipeline.Window sig grid0 :=
  Pipeline.Window.ofSpec (Memref.whole main_v0) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S64 : Shape := ⟨1, ![64]⟩
abbrev S262144x1 : Shape := ⟨2, ![262144, 1]⟩
abbrev S64x256 : Shape := ⟨2, ![64, 256]⟩
abbrev S64x1 : Shape := ⟨2, ![64, 1]⟩

abbrev nBuf : Space → Nat
  | .hbm => 33
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S64, .f32⟩
  | .hbm, ⟨6, _⟩ => ⟨S262144x1, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64x256, .f32⟩
  | .hbm, ⟨13, _⟩ => ⟨S262144x1, .i32⟩
  | .hbm, ⟨14, _⟩ => ⟨S64x256, .f32⟩
  | .hbm, ⟨15, _⟩ => ⟨S64x1, .f32⟩
  | .hbm, ⟨16, _⟩ => ⟨S64x256, .f32⟩
  | .hbm, ⟨17, _⟩ => ⟨S64x256, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S64 : S_.BroadcastsInDim S64 (![] : Fin 0 → Fin S64.rank)
  bcast_S262144_S262144x1_0 : S262144.BroadcastsInDim S262144x1 (![0] : Fin 1 → Fin S262144x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S262144x256_S_d0_1 : S262144x256.ReducesTo [0, 1] S_
  h_S_ : 0 < S_.numel
  scatter_S64_S262144x1_S262144_n_0_0_1_wf : ScatterDims.WF S64 S262144x1 S262144 [] [0] [0] 1
  scatter_S64x256_S262144x1_S262144x256_1_0_0_1_wf : ScatterDims.WF S64x256 S262144x1 S262144x256 [1] [0] [0] 1
  gather_S64x256_S262144x1_S262144x256_1_0_n_n_0_1_1256_wf : GatherDims.WF S64x256 S262144x1 S262144x256 [1] [0] [] [0] [] 1 ![1, 256]

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def scatter_S64x256_S262144x1_S262144x256_1_0_0_1 : ScatterDims S64x256 S262144x1 S262144x256 where
  updateWindowDims := [1]
  insertedWindowDims := [0]
  scatterDimsToOperandDims := [0]
  indexVectorDim := 1
  wf := scatter_S64x256_S262144x1_S262144x256_1_0_0_1_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf

class Facts : Prop extends Facts₀ where

variable [Facts]
-- ==== Proof.Spec.lean ====
/-
  The center loss, as mathematics.

  A feature array `x` of 262144 rows and 256 lanes of extended reals, and one class word per row. Row `i` belongs to
  class `k` when its word, read as a natural number, is `k`. For a range of rows `[lo, hi)`:
    * `segSum` is the per-class, per-lane sum of the rows of the range that belong to the class;
    * `sqSum` is the sum of the squares of every entry of the rows of the range;
  and `count` is the number of rows of a class, counted in units of the constant `one32`.

  Two ways to the loss, both ending in the same division by the number of entries:
    * `refNum`: the sum over all entries of the squared distance of the entry to its class centroid, the centroid
      being the class sum divided by the count clamped below by one;
    * `kerNum`: the sum of all squares, less, per class, the squared norm of the class sum divided by the clamped
      count — with both the squares and the class sums taken as the sum of the two halves of the rows.
  That the two numerators agree when every entry is a real number and every class word is below 64 is the variance
  decomposition  Σᵢ ‖xᵢ − c(yᵢ)‖² = Σᵢ ‖xᵢ‖² − Σₖ ‖Sₖ‖² / max(nₖ, 1)  (stated in `Algebra.lean`).
-/
import Idealize.ShloMosaic.PureOps.Ideal
import Idealize.ShloMosaic.PureOps.Ideal.Laws
import Idealize.ShloMosaic.Lib.ValueIdx

noncomputable section

open scoped BigOperators

namespace Cert.CenterLoss

open Idealize.ShloMosaic Idealize.ShloMosaic.ValueIdx

/-- The feature array's shape: 262144 rows of 256 lanes. -/
abbrev SX : Shape := ⟨2, ![262144, 256]⟩
/-- The class words' shape: one per row. -/
abbrev SL : Shape := ⟨1, ![262144]⟩

/-- The float constant 1.0 as the programs spell it. -/
def one32 : EReal := Ideal.ofBits .f32 0x3F800000#32
/-- The programs' last divisor (the number of entries, 2²⁶), as they spell it; never evaluated. -/
def denom32 : EReal := Ideal.ofBits .f32 0x4C800000#32

/-- The constant 1.0 is the extended real 1. -/
theorem one32_eq : one32 = 1 := by
  simp [one32, Ideal.ofBits, Ideal.ieee]
  rw [← EReal.coe_mul]
  norm_num

/-- The entry of row `i`, lane `d`. -/
def feat (x : SX.Idx → EReal) (i : Fin 262144) (d : Fin 256) : EReal := x (ix2 i d)
/-- The class of row `i`: its word read as a natural number. -/
def cls (lab : SL.Idx → BitVec 32) (i : Fin 262144) : ℕ := (lab (ix1 i)).toNat

variable (x : SX.Idx → EReal) (lab : SL.Idx → BitVec 32)

/-- How many rows belong to class `k`, one `one32` per row. -/
def count (k : ℕ) : EReal := ∑ i : Fin 262144, if cls lab i = k then one32 else 0
/-- The count clamped below by one: the divisor of a centroid. -/
def countMax (k : ℕ) : EReal := max (count lab k) one32
/-- Lane `d` of the sum of the rows of `[lo, hi)` that belong to class `k`. -/
def segSum (lo hi : ℕ) (k : ℕ) (d : Fin 256) : EReal :=
  ∑ i : Fin 262144, if lo ≤ i.val ∧ i.val < hi ∧ cls lab i = k then feat x i d else 0
/-- The sum of the squares of every entry of the rows of `[lo, hi)`. -/
def sqSum (lo hi : ℕ) : EReal :=
  ∑ i : Fin 262144, if lo ≤ i.val ∧ i.val < hi then ∑ d : Fin 256, feat x i d * feat x i d else 0

/-- Lane `d` of the class sum taken as the sum of the two halves of the rows. -/
def halvesSum (k : ℕ) (d : Fin 256) : EReal := segSum x lab 0 131072 k d + segSum x lab 131072 262144 k d

/-- The numerator on the one-pass road: all squares, less the classes' squared norms over their clamped counts. -/
def kerNum : EReal :=
  (sqSum x 0 131072 + sqSum x 131072 262144)
    - ∑ k : Fin 64, Ideal.div (∑ d : Fin 256, halvesSum x lab k.val d * halvesSum x lab k.val d) (countMax lab k.val)

/-- Lane `d` of the centroid of class `k`. -/
def centroid (k : ℕ) (d : Fin 256) : EReal := Ideal.div (segSum x lab 0 262144 k d) (countMax lab k)

/-- The numerator on the two-pass road: every entry's squared distance to its class centroid. -/
def refNum : EReal :=
  ∑ i : Fin 262144, ∑ d : Fin 256,
    (centroid x lab (cls lab i) d - feat x i d) * (centroid x lab (cls lab i) d - feat x i d)

/-- The one-pass loss. -/
def kerVal : EReal := Ideal.div (kerNum x lab) denom32
/-- The two-pass loss. -/
def refVal : EReal := Ideal.div (refNum x lab) denom32

end Cert.CenterLoss

end
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.Algebra.lean ====
/-
  The variance decomposition that joins the two roads to the center loss.

  The proof has three layers.
    * An identity of real numbers over an abstract finite set of rows and of lanes: for every class, the
      squared distances of the class's rows to the class centroid add up to the class's squares less the
      squared norm of the class sum over the clamped count; summed over the classes (every row being in
      exactly one) this is the variance decomposition.
    * Every extended-real quantity of the specification is the coercion of its real counterpart, the entries
      being real and the clamped counts being at least one.
    * The two halves of the rows add up to all the rows.
-/
import proofs.«430246_j9388798509687_3_alg».proof.Proof.Spec
import proofs.«430246_j9388798509687_3_alg».proof.Proof.LibERealCoe
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Linarith

noncomputable section

open scoped BigOperators

namespace Cert.CenterLoss

open Idealize.ShloMosaic Idealize.ShloMosaic.ValueIdx Cert.ERealCoe

/-! ### The identity over the reals, rows and lanes abstract -/

section RealIdentity

variable {ι δ : Type*} [Fintype ι] [Fintype δ]

/-- The number of rows of class `k`, as a real. -/
def nR (y : ι → ℕ) (k : ℕ) : ℝ := ∑ i, if y i = k then (1 : ℝ) else 0
/-- Lane `d` of the sum of the rows of class `k`. -/
def SR (y : ι → ℕ) (X : ι → δ → ℝ) (k : ℕ) (d : δ) : ℝ := ∑ i, if y i = k then X i d else 0

/-- A class has a row, so its count is at least one, or it has none, so its sum is zero. -/
theorem nR_ge_one_or_SR_eq_zero (y : ι → ℕ) (X : ι → δ → ℝ) (k : ℕ) (d : δ) :
    1 ≤ nR y k ∨ SR y X k d = 0 := by
  by_cases h : ∃ i₀, y i₀ = k
  · obtain ⟨i₀, hi₀⟩ := h
    left
    unfold nR
    have hle := Finset.single_le_sum (f := fun i => if y i = k then (1 : ℝ) else 0) (s := Finset.univ)
      (fun i _ => by split_ifs <;> norm_num) (Finset.mem_univ i₀)
    simpa [hi₀] using hle
  · right
    unfold SR
    refine Finset.sum_eq_zero fun i _ => ?_
    rw [if_neg]
    intro hi
    exact h ⟨i, hi⟩

/-- With `c = 1 / max n 1`: `(s c)² n − 2 (s c) s = − s² c` when `n ≥ 1` (then `c n = 1`) or `s = 0`. -/
theorem scalar_identity (s n : ℝ) (h : 1 ≤ n ∨ s = 0) :
    s * (1 / max n 1) * (s * (1 / max n 1)) * n - 2 * (s * (1 / max n 1)) * s
      = -(s * s * (1 / max n 1)) := by
  rcases h with h | h
  · rw [max_eq_left h]
    have hn : n ≠ 0 := by linarith
    field_simp
    ring
  · subst h
    ring

/-- One class: the squared distances of its rows to its centroid are its squares less the squared norm of its
sum over its clamped count. -/
theorem class_identity (y : ι → ℕ) (X : ι → δ → ℝ) (k : ℕ) :
    (∑ i, if y i = k then
        ∑ d, (SR y X k d * (1 / max (nR y k) 1) - X i d) * (SR y X k d * (1 / max (nR y k) 1) - X i d) else 0)
      = (∑ i, if y i = k then ∑ d, X i d * X i d else 0)
        - (∑ d, SR y X k d * SR y X k d) * (1 / max (nR y k) 1) := by
  -- the class test goes inside the lane sum, and the lane sum comes outside
  have push : ∀ g : ι → δ → ℝ,
      (∑ i, if y i = k then ∑ d, g i d else 0) = ∑ d, ∑ i, if y i = k then g i d else 0 := by
    intro g
    rw [Finset.sum_comm]
    refine Finset.sum_congr rfl fun i _ => ?_
    split_ifs <;> simp
  rw [push, push, Finset.sum_mul, ← Finset.sum_sub_distrib]
  refine Finset.sum_congr rfl fun d _ => ?_
  -- one lane: expand the square under the class test
  have expand : ∀ i, (if y i = k then
        (SR y X k d * (1 / max (nR y k) 1) - X i d) * (SR y X k d * (1 / max (nR y k) 1) - X i d) else 0)
      = SR y X k d * (1 / max (nR y k) 1) * (SR y X k d * (1 / max (nR y k) 1)) * (if y i = k then (1 : ℝ) else 0)
        - 2 * (SR y X k d * (1 / max (nR y k) 1)) * (if y i = k then X i d else 0)
        + (if y i = k then X i d * X i d else 0) := by
    intro i
    split_ifs <;> ring
  rw [Finset.sum_congr rfl fun i _ => expand i, Finset.sum_add_distrib, Finset.sum_sub_distrib,
    ← Finset.mul_sum, ← Finset.mul_sum]
  have key := scalar_identity (SR y X k d) (nR y k) (nR_ge_one_or_SR_eq_zero y X k d)
  have hn : (∑ i, if y i = k then (1 : ℝ) else 0) = nR y k := rfl
  have hS : (∑ i, if y i = k then X i d else 0) = SR y X k d := rfl
  rw [hn, hS]
  linarith

/-- Grouping the rows by class: every row is in exactly one of the 64 classes. -/
theorem sum_by_class (y : ι → ℕ) (hy : ∀ i, y i < 64) (f : ℕ → ι → ℝ) :
    ∑ i, f (y i) i = ∑ k : Fin 64, ∑ i, if y i = k.val then f k.val i else 0 := by
  rw [Finset.sum_comm]
  refine Finset.sum_congr rfl fun i _ => ?_
  rw [Finset.sum_eq_single (⟨y i, hy i⟩ : Fin 64)]
  · simp
  · intro k _ hk
    rw [if_neg]
    intro h
    exact hk (Fin.ext h.symm)
  · intro h
    exact absurd (Finset.mem_univ _) h

/-- The variance decomposition over the reals. -/
theorem real_identity (y : ι → ℕ) (hy : ∀ i, y i < 64) (X : ι → δ → ℝ) :
    (∑ i, ∑ d, X i d * X i d)
        - ∑ k : Fin 64, (∑ d, SR y X k.val d * SR y X k.val d) * (1 / max (nR y k.val) 1)
      = ∑ i, ∑ d, (SR y X (y i) d * (1 / max (nR y (y i)) 1) - X i d)
          * (SR y X (y i) d * (1 / max (nR y (y i)) 1) - X i d) := by
  rw [sum_by_class y hy (fun k i => ∑ d, (SR y X k d * (1 / max (nR y k) 1) - X i d)
      * (SR y X k d * (1 / max (nR y k) 1) - X i d))]
  rw [Finset.sum_congr rfl fun (k : Fin 64) _ => class_identity y X k.val, Finset.sum_sub_distrib,
    ← sum_by_class y hy (fun _ i => ∑ d, X i d * X i d)]

end RealIdentity

/-! ### The two halves of the rows are all the rows -/

/-- A sum over the rows below 131072 and one over the rows from 131072 on add up to the sum over all rows. -/
theorem halves_add (p : Fin 262144 → Prop) [DecidablePred p] (f : Fin 262144 → EReal) :
    (∑ i : Fin 262144, if 0 ≤ i.val ∧ i.val < 131072 ∧ p i then f i else 0)
      + (∑ i : Fin 262144, if 131072 ≤ i.val ∧ i.val < 262144 ∧ p i then f i else 0)
      = ∑ i : Fin 262144, if p i then f i else 0 := by
  rw [← Finset.sum_add_distrib]
  refine Finset.sum_congr rfl fun i _ => ?_
  have hi := i.isLt
  by_cases hp : p i
  · by_cases hlt : i.val < 131072
    · have h2 : ¬ (131072 ≤ i.val) := by omega
      simp [hp, hlt, h2]
    · have h2 : 131072 ≤ i.val := by omega
      simp [hp, hlt, h2, hi]
  · simp [hp]

/-! ### The specification's quantities as coercions of reals -/

section Concrete

variable (lab : SL.Idx → BitVec 32) (r : SX.Idx → ℝ)

/-- The real entry of row `i`, lane `d`. -/
def featR (i : Fin 262144) (d : Fin 256) : ℝ := r (ix2 i d)

theorem count_eq (k : ℕ) : count lab k = ((nR (cls lab) k : ℝ) : EReal) := by
  unfold count nR
  rw [coe_sum]
  refine Finset.sum_congr rfl fun i _ => ?_
  rw [one32_eq]
  split_ifs <;> simp

theorem countMax_eq (k : ℕ) : countMax lab k = ((max (nR (cls lab) k) 1 : ℝ) : EReal) := by
  unfold countMax
  rw [count_eq, one32_eq, coe_max, EReal.coe_one]

variable (x : SX.Idx → EReal) (hr : ∀ j, x j = (r j : EReal))

include hr

theorem feat_eq (i : Fin 262144) (d : Fin 256) : feat x i d = ((featR r i d : ℝ) : EReal) := hr _

theorem segSum_all_eq (k : ℕ) (d : Fin 256) :
    segSum x lab 0 262144 k d = ((SR (cls lab) (featR r) k d : ℝ) : EReal) := by
  unfold segSum SR
  rw [coe_sum]
  refine Finset.sum_congr rfl fun i _ => ?_
  have hi := i.isLt
  rw [feat_eq r x hr]
  by_cases h : cls lab i = k <;> simp [h, hi]

theorem halvesSum_eq (k : ℕ) (d : Fin 256) :
    halvesSum x lab k d = ((SR (cls lab) (featR r) k d : ℝ) : EReal) := by
  rw [← segSum_all_eq lab r x hr]
  unfold halvesSum segSum
  rw [halves_add (fun i => cls lab i = k) (fun i => feat x i d)]
  refine Finset.sum_congr rfl fun i _ => ?_
  have hi := i.isLt
  by_cases h : cls lab i = k <;> simp [h, hi]

theorem sqSum_halves_eq :
    sqSum x 0 131072 + sqSum x 131072 262144
      = ((∑ i : Fin 262144, ∑ d : Fin 256, featR r i d * featR r i d : ℝ) : EReal) := by
  unfold sqSum
  have h := halves_add (fun _ => True) (fun i => ∑ d : Fin 256, feat x i d * feat x i d)
  simp only [and_true, if_true] at h
  rw [h, coe_sum]
  refine Finset.sum_congr rfl fun i _ => ?_
  rw [coe_sum]
  refine Finset.sum_congr rfl fun d _ => ?_
  rw [feat_eq r x hr, EReal.coe_mul]

theorem centroid_eq (k : ℕ) (d : Fin 256) :
    centroid x lab k d
      = ((SR (cls lab) (featR r) k d * (1 / max (nR (cls lab) k) 1) : ℝ) : EReal) := by
  unfold centroid
  rw [segSum_all_eq lab r x hr, countMax_eq, div_coe_max_one]

theorem kerNum_eq_coe :
    kerNum x lab
      = (((∑ i : Fin 262144, ∑ d : Fin 256, featR r i d * featR r i d)
          - ∑ k : Fin 64, (∑ d : Fin 256, SR (cls lab) (featR r) k.val d * SR (cls lab) (featR r) k.val d)
              * (1 / max (nR (cls lab) k.val) 1) : ℝ) : EReal) := by
  -- the classes' term, one class at a time
  have hsum : (∑ k : Fin 64,
        Ideal.div (∑ d : Fin 256, halvesSum x lab k.val d * halvesSum x lab k.val d) (countMax lab k.val))
      = ((∑ k : Fin 64, (∑ d : Fin 256, SR (cls lab) (featR r) k.val d * SR (cls lab) (featR r) k.val d)
              * (1 / max (nR (cls lab) k.val) 1) : ℝ) : EReal) := by
    rw [coe_sum]
    refine Finset.sum_congr rfl fun k _ => ?_
    have hnorm : (∑ d : Fin 256, halvesSum x lab k.val d * halvesSum x lab k.val d)
        = ((∑ d : Fin 256, SR (cls lab) (featR r) k.val d * SR (cls lab) (featR r) k.val d : ℝ) : EReal) := by
      rw [coe_sum]
      refine Finset.sum_congr rfl fun d _ => ?_
      rw [halvesSum_eq lab r x hr, EReal.coe_mul]
    rw [hnorm, countMax_eq, div_coe_max_one]
  unfold kerNum
  rw [sqSum_halves_eq r x hr, hsum, ← EReal.coe_sub]

theorem refNum_eq_coe :
    refNum x lab
      = ((∑ i : Fin 262144, ∑ d : Fin 256,
          (SR (cls lab) (featR r) (cls lab i) d * (1 / max (nR (cls lab) (cls lab i)) 1) - featR r i d)
            * (SR (cls lab) (featR r) (cls lab i) d * (1 / max (nR (cls lab) (cls lab i)) 1) - featR r i d) : ℝ)
          : EReal) := by
  unfold refNum
  rw [coe_sum]
  refine Finset.sum_congr rfl fun i _ => ?_
  rw [coe_sum]
  refine Finset.sum_congr rfl fun d _ => ?_
  rw [centroid_eq lab r x hr, feat_eq r x hr, ← EReal.coe_sub, ← EReal.coe_mul]

end Concrete

/-- When every entry is a real number and every class word is below 64, the one-pass numerator is the two-pass one. -/
theorem kerNum_eq_refNum (x : SX.Idx → EReal) (lab : SL.Idx → BitVec 32)
    (hx : ∀ j, ∃ r : ℝ, x j = (r : EReal)) (hl : ∀ i : Fin 262144, cls lab i < 64) :
    kerNum x lab = refNum x lab := by
  choose r hr using hx
  rw [kerNum_eq_coe lab r x hr, refNum_eq_coe lab r x hr, real_identity (cls lab) hl (featR r)]

/-- So the two losses agree. -/
theorem kerVal_eq_refVal (x : SX.Idx → EReal) (lab : SL.Idx → BitVec 32)
    (hx : ∀ j, ∃ r : ℝ, x j = (r : EReal)) (hl : ∀ i : Fin 262144, cls lab i < 64) :
    kerVal x lab = refVal x lab := by
  unfold kerVal refVal
  rw [kerNum_eq_refNum x lab hx hl]

end Cert.CenterLoss

end
-- ==== Proof.PreDecode.lean ====
/-
  What the precondition says of the inputs: every feature entry is a real number, every class word is below 64.
-/
import proofs.«430246_j9388798509687_3_alg».proof.Pre_finite_inputs
import proofs.«430246_j9388798509687_3_alg».proof.Proof.Gen.Pre_finite_inputs
import proofs.«430246_j9388798509687_3_alg».proof.Proof.Spec
import Idealize.ShloMosaic.Lib.ReduceAll
import Idealize.ShloMosaic.Lib.StableHlo.Predicate

noncomputable section

namespace Cert.CenterLoss

open Idealize.ShloMosaic Idealize.ShloMosaic.ValueIdx

namespace PreDecode

/-- The pattern of positive infinity denotes the top of the extended reals. -/
theorem inf32_eq : Ideal.ofBits .f32 0x7F800000#32 = ⊤ := by
  simp [Ideal.ofBits, Ideal.ieee]

/-- An extended real whose absolute value, max a (−a), is below the top is a real number: neither infinity passes. -/
theorem real_of_abs_lt_top (a : EReal) (ha : max a (-a) < ⊤) : ∃ r : ℝ, a = (r : EReal) := by
  induction a using EReal.rec with
  | bot => simp at ha
  | coe r => exact ⟨r, rfl⟩
  | top => simp at ha

/-- A word that is at least 0 and below 64 as a SIGNED number is below 64 as a natural number: the first comparison
    puts it in the non-negative half, where the signed and the unsigned readings agree. -/
theorem toNat_lt_of_signed (w : BitVec 32) (h0 : IntOp.cmpi .sge w 0#32 = 1#1) (h1 : IntOp.cmpi .slt w 64#32 = 1#1) :
    w.toNat < 64 := by
  simp only [IntOp.cmpi, StableHlo.Predicate.ofBool_eq_one_iff, BitVec.sle, BitVec.slt, decide_eq_true_eq] at h0 h1
  have hw := BitVec.toInt_eq_toNat_cond w
  have z0 : (0#32).toInt = 0 := by decide
  have z1 : (64#32).toInt = 64 := by decide
  rw [z0] at h0
  rw [z1] at h1
  have := w.isLt
  split at hw <;> omega

end PreDecode

/-- The printed precondition, all ones, gives finiteness of every entry and the class range of every word. -/
theorem of_pre [Cert.Pre_finite_inputs.Facts] (x : SX.Idx → EReal) (lab : SL.Idx → BitVec 32)
    (h : Cert.Pre_finite_inputs.fn (F := Ideal) x lab = fun _ => 1#1) :
    (∀ j, ∃ r : ℝ, x j = (r : EReal)) ∧ (∀ i : Fin 262144, cls lab i < 64) := by
  -- the scalar shape has one index, so a reduction over every axis into it meets every element
  haveI : Subsingleton Cert.Pre_finite_inputs.S_.Idx := ⟨fun a b => funext fun d => d.elim0⟩
  have h0 := congrFun h ValueIdx.ix0
  dsimp only [Cert.Pre_finite_inputs.fn] at h0
  -- the last conjunction: the entries' bit and the words' bit
  obtain ⟨hx, hl⟩ := IntOp.andi_eq_one.1 h0
  refine ⟨fun j => ?_, fun i => ?_⟩
  · -- the entry's comparison |x j| < +∞, read at the entry's index
    have e := Host.reduce_andi_all _ _ _ _ _ hx j
    change Ideal.cmp .olt (max (x j) (-(x j))) (Ideal.ofBits .f32 0x7F800000#32) = 1#1 at e
    rw [PreDecode.inf32_eq] at e
    simp only [Ideal.cmp, StableHlo.Predicate.ofBool_eq_one_iff, decide_eq_true_eq] at e
    exact PreDecode.real_of_abs_lt_top _ e
  · -- the word's two signed comparisons, 0 ≤ w and w < 64, read at the row's index
    have e := Host.reduce_andi_all _ _ _ _ _ hl (ix1 i)
    obtain ⟨e0, e1⟩ := IntOp.andi_eq_one.1 e
    exact PreDecode.toNat_lt_of_signed (lab (ix1 i)) e0 e1

end Cert.CenterLoss

end
-- ==== Proof.RefValue.lean ====
/-
  The two-pass program's result is the two-pass loss.

  The program is read one stage at a time. The two scatter-adds and the gather choose their elements by the class
  words, so their index arithmetic is worked out first, at the printed dimension numbers: an update of row i lands on
  class k exactly when row i's word, read signed, is k (for k below 64 that is the word read unsigned: no hypothesis
  on the words is needed there), and the gather reads the row named by the word clamped into [0, 63] (the identity on
  a word below 64: the one place the hypothesis is used, together with the wrap-around select, which keeps a
  non-negative word). The sums over shape index sets then become the sums over rows and lanes of the mathematics.
-/
import proofs.«430246_j9388798509687_3_alg».proof.Proof.Gen.ReferenceIdeal.Run
import proofs.«430246_j9388798509687_3_alg».proof.Proof.Gen.ReferenceIdeal.Read
import proofs.«430246_j9388798509687_3_alg».proof.Proof.Spec
import Idealize.ShloMosaic.Lib.ValueIdxRank1

noncomputable section

open scoped BigOperators

namespace Cert.CenterLoss.Ref

open Cert.ReferenceIdeal Cert.ReferenceIdeal.Gen Idealize.ShloMosaic Idealize.ShloMosaic.TcCoe Idealize.SL.Sem
open Idealize.ShloMosaic.ValueIdx Cert.CenterLoss

/-! ## The two scatters' and the gather's index arithmetic at the printed dimension numbers -/

/-- A 32-bit word's signed reading is a natural number below 2³¹ exactly when its unsigned reading is that number. -/
theorem toInt_eq_natCast_iff (w : BitVec 32) (k : ℕ) (hk : k < 2147483648) : w.toInt = (k : Int) ↔ w.toNat = k := by
  have hw := w.isLt
  rw [BitVec.toInt_eq_toNat_cond]
  split <;> omega

/-- Counts' scatter: the start of update j on the one operand axis is the word of row j, read signed. -/
theorem scat1_start (j : S262144.Idx) (idx : IVec S262144x1 32) (a : Fin 1) :
    scatter_S64_S262144x1_S262144_n_0_0_1.start j idx a = (idx (ix2 (j 0) 0)).toInt := by
  obtain rfl : a = 0 := Subsingleton.elim _ _
  unfold ScatterDims.start
  rw [dif_pos (show (0 : Fin 1) ∈ scatter_S64_S262144x1_S262144_n_0_0_1.scatterDimsToOperandDims from List.mem_singleton.mpr rfl)]
  congr 2
  funext b
  refine Fin.ext ?_
  match b with
  | ⟨0, _⟩ => rfl
  | ⟨1, _⟩ => rfl

/-- Counts' scatter: no window axis. -/
theorem scat1_window (j : S262144.Idx) (a : Fin 1) :
    scatter_S64_S262144x1_S262144_n_0_0_1.window j a = 0 := by
  obtain rfl : a = 0 := Subsingleton.elim _ _
  unfold ScatterDims.window
  rw [dif_neg (by decide)]

/-- Counts' scatter: update j lands on class k exactly when row j's word, read signed, is k. -/
theorem scat1_resultIdx (j : S262144.Idx) (idx : IVec S262144x1 32) (k : S64.Idx) :
    scatter_S64_S262144x1_S262144_n_0_0_1.resultIdx? j idx = some k ↔ (idx (ix2 (j 0) 0)).toInt = ((k 0).val : Int) := by
  have hk : (k 0).val < 64 := (k 0).isLt
  unfold ScatterDims.resultIdx?
  split
  · rename_i h
    have h0 := h 0
    rw [scat1_start, scat1_window] at h0
    constructor
    · intro hs
      have h1 := congrArg Fin.val (congrFun (Option.some.inj hs) 0)
      simp only [scat1_start, scat1_window] at h1
      omega
    · intro hs
      congr 1
      funext a
      obtain rfl : a = 0 := Subsingleton.elim _ _
      refine Fin.ext ?_
      simp only [scat1_start, scat1_window]
      omega
  · rename_i h
    constructor
    · intro hs; exact absurd hs (by simp)
    · intro hs
      exfalso
      apply h
      intro a
      obtain rfl : a = 0 := Subsingleton.elim _ _
      rw [scat1_start, scat1_window, hs]
      show (0 : Int) ≤ ((k 0).val : Int) + ((0 : ℕ) : Int) ∧ ((k 0).val : Int) + ((0 : ℕ) : Int) < ((64 : ℕ) : Int)
      omega

/-- Class sums' scatter: the start of update j on the class axis is the word of row j, read signed; on the lane axis 0. -/
theorem scat2_start0 (j : S262144x256.Idx) (idx : IVec S262144x1 32) :
    scatter_S64x256_S262144x1_S262144x256_1_0_0_1.start j idx 0 = (idx (ix2 (j 0) 0)).toInt := by
  unfold ScatterDims.start
  rw [dif_pos (show (0 : Fin 2) ∈ scatter_S64x256_S262144x1_S262144x256_1_0_0_1.scatterDimsToOperandDims from List.mem_singleton.mpr rfl)]
  congr 2
  funext b
  refine Fin.ext ?_
  match b with
  | ⟨0, _⟩ => rfl
  | ⟨1, _⟩ => rfl

/-- Class sums' scatter: the start index has no component for the lane axis. -/
theorem scat2_start1 (j : S262144x256.Idx) (idx : IVec S262144x1 32) :
    scatter_S64x256_S262144x1_S262144x256_1_0_0_1.start j idx 1 = 0 := by
  unfold ScatterDims.start
  rw [dif_neg (by decide)]

/-- Class sums' scatter: the window coordinate is 0 on the class axis and the update's lane on the lane axis. -/
theorem scat2_window0 (j : S262144x256.Idx) :
    scatter_S64x256_S262144x1_S262144x256_1_0_0_1.window j 0 = 0 := by
  unfold ScatterDims.window
  rw [dif_neg (by decide)]

/-- Class sums' scatter: on the lane axis the window coordinate is the update's lane. -/
theorem scat2_window1 (j : S262144x256.Idx) :
    scatter_S64x256_S262144x1_S262144x256_1_0_0_1.window j 1 = (j 1).val := by
  unfold ScatterDims.window
  rw [dif_pos (by decide)]
  rfl

/-- Class sums' scatter: update (row, lane) lands on (class k, lane d) exactly when the row's word, read signed, is k
    and the lanes agree. -/
theorem scat2_resultIdx (j : S262144x256.Idx) (idx : IVec S262144x1 32) (k : S64x256.Idx) :
    scatter_S64x256_S262144x1_S262144x256_1_0_0_1.resultIdx? j idx = some k
      ↔ (idx (ix2 (j 0) 0)).toInt = ((k 0).val : Int) ∧ j 1 = k 1 := by
  have hk0 : (k 0).val < 64 := (k 0).isLt
  have hk1 : (k 1).val < 256 := (k 1).isLt
  have hj1 : (j 1).val < 256 := (j 1).isLt
  unfold ScatterDims.resultIdx?
  split
  · rename_i h
    have h0 := h 0
    rw [scat2_start0, scat2_window0] at h0
    constructor
    · intro hs
      have h1 := congrArg Fin.val (congrFun (Option.some.inj hs) 0)
      have h2 := congrArg Fin.val (congrFun (Option.some.inj hs) 1)
      simp only [scat2_start0, scat2_window0, scat2_start1, scat2_window1] at h1 h2
      refine ⟨by omega, Fin.ext (by omega)⟩
    · rintro ⟨hs, hl⟩
      have hl' : (j 1).val = (k 1).val := congrArg Fin.val hl
      congr 1
      funext a
      refine Fin.ext ?_
      match a with
      | ⟨0, _⟩ =>
        show (scatter_S64x256_S262144x1_S262144x256_1_0_0_1.start j idx 0 + (scatter_S64x256_S262144x1_S262144x256_1_0_0_1.window j 0 : Int)).toNat = (k 0).val
        rw [scat2_start0, scat2_window0]
        omega
      | ⟨1, _⟩ =>
        show (scatter_S64x256_S262144x1_S262144x256_1_0_0_1.start j idx 1 + (scatter_S64x256_S262144x1_S262144x256_1_0_0_1.window j 1 : Int)).toNat = (k 1).val
        rw [scat2_start1, scat2_window1]
        omega
  · rename_i h
    constructor
    · intro hs; exact absurd hs (by simp)
    · rintro ⟨hs, hl⟩
      exfalso
      apply h
      intro a
      match a with
      | ⟨0, _⟩ =>
        show (0 : Int) ≤ scatter_S64x256_S262144x1_S262144x256_1_0_0_1.start j idx 0 + (scatter_S64x256_S262144x1_S262144x256_1_0_0_1.window j 0 : Int)
          ∧ scatter_S64x256_S262144x1_S262144x256_1_0_0_1.start j idx 0 + (scatter_S64x256_S262144x1_S262144x256_1_0_0_1.window j 0 : Int) < ((64 : ℕ) : Int)
        rw [scat2_start0, scat2_window0, hs]
        omega
      | ⟨1, _⟩ =>
        show (0 : Int) ≤ scatter_S64x256_S262144x1_S262144x256_1_0_0_1.start j idx 1 + (scatter_S64x256_S262144x1_S262144x256_1_0_0_1.window j 1 : Int)
          ∧ scatter_S64x256_S262144x1_S262144x256_1_0_0_1.start j idx 1 + (scatter_S64x256_S262144x1_S262144x256_1_0_0_1.window j 1 : Int) < ((256 : ℕ) : Int)
        rw [scat2_start1, scat2_window1]
        omega

/-- The gather of rows read at (row i, lane d): the operand at the row named by i's start word, read signed and clamped
    into [0, 63], and at lane d. -/
theorem gather_apply {α : Type} (v : S64x256.Idx → α) (idx : IVec S262144x1 32) (j : S262144x256.Idx) :
    Host.gather gather_S64x256_S262144x1_S262144x256_1_0_n_n_0_1_1256 v idx j
      = v (ix2 (⟨min (idx (ix2 (j 0) 0)).toInt.toNat 63, by omega⟩ : Fin 64) (j 1)) := by
  unfold Host.gather
  congr 1
  funext a
  refine Fin.ext ?_
  match a with
  | ⟨0, _⟩ =>
    show gather_S64x256_S262144x1_S262144x256_1_0_n_n_0_1_1256.start j idx 0
        + gather_S64x256_S262144x1_S262144x256_1_0_n_n_0_1_1256.batchCoord j 0
        + gather_S64x256_S262144x1_S262144x256_1_0_n_n_0_1_1256.offCoord j 0 = _
    rw [GatherDims.batchCoord_eq_zero _ _ _ List.not_mem_nil, GatherDims.offCoord_eq_zero _ _ _ (by decide)]
    simp only [Nat.add_zero]
    unfold GatherDims.start
    rw [dif_pos (show (0 : Fin 2) ∈ gather_S64x256_S262144x1_S262144x256_1_0_n_n_0_1_1256.startIndexMap from
      List.mem_singleton.mpr rfl)]
    have hsi : gather_S64x256_S262144x1_S262144x256_1_0_n_n_0_1_1256.siIdx j
        ⟨List.idxOf (0 : Fin 2) gather_S64x256_S262144x1_S262144x256_1_0_n_n_0_1_1256.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show gather_S64x256_S262144x1_S262144x256_1_0_n_n_0_1_1256.start j idx 1
        + gather_S64x256_S262144x1_S262144x256_1_0_n_n_0_1_1256.batchCoord j 1
        + gather_S64x256_S262144x1_S262144x256_1_0_n_n_0_1_1256.offCoord j 1 = (j 1).val
    rw [GatherDims.batchCoord_eq_zero _ _ _ List.not_mem_nil]
    unfold GatherDims.start GatherDims.offCoord
    rw [dif_neg (by decide), dif_pos (by decide)]
    simp only [Nat.add_zero, Nat.zero_add]
    rfl

/-! ## The stages, read at an index -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Stages

variable (x : SX.Idx → EReal) (lab : SL.Idx → BitVec 32)

/-- The class words as a column: entry (i, 0) is row i's word. -/
theorem v2_apply (a : Fin 262144) : Read.val_main_v2 (F := Ideal) lab (ix2 a 0) = lab (ix1 a) := by
  rw [Read.val_main_v2_apply]
  congr 1
  funext d
  match d with
  | ⟨0, _⟩ => rfl

/-- The same column, as the second scatter reads it. -/
theorem v7_apply (a : Fin 262144) : Read.val_main_v7 (F := Ideal) lab (ix2 a 0) = lab (ix1 a) := by
  rw [Read.val_main_v7_apply]
  congr 1
  funext d
  match d with
  | ⟨0, _⟩ => rfl

/-- The scatter-add of ones: class k's entry is the count of the rows whose word is k. -/
theorem v3_eq (k : S64.Idx) : Read.val_main_v3 (F := Ideal) lab k = count lab (k 0).val := by
  have hk : (k 0).val < 64 := (k 0).isLt
  unfold Read.val_main_v3
  show Read.val_main_v1 (F := Ideal) k
      + ∑ j ∈ Finset.univ.filter (fun j => scatter_S64_S262144x1_S262144_n_0_0_1.resultIdx? j
          (Read.val_main_v2 (F := Ideal) lab) = some k), Read.val_main_v0 (F := Ideal) j = _
  rw [Read.val_main_v1_apply, Read.val_main_cst_0_apply, Ideal.ofBits_def, Ideal.ofBits_zero_f32, zero_add,
    Finset.sum_filter, sum_idx1]
  unfold count
  refine Finset.sum_congr rfl fun a _ => ?_
  refine if_congr ?_ ?_ rfl
  · rw [scat1_resultIdx]
    show (Read.val_main_v2 (F := Ideal) lab (ix2 a 0)).toInt = ((k 0).val : Int) ↔ _
    rw [v2_apply, toInt_eq_natCast_iff _ _ (by omega)]
    rfl
  · rw [Read.val_main_v0_apply, Read.val_main_cst_apply]
    rfl

end Stages

section Stages2

variable (x : SX.Idx → EReal) (lab : SL.Idx → BitVec 32)

/-- The clamped counts. -/
theorem v5_eq (k : S64.Idx) : Read.val_main_v5 (F := Ideal) lab k = countMax lab (k 0).val := by
  rw [Read.val_main_v5_apply, v3_eq, Read.val_main_v4_apply, Read.val_main_cst_1_apply]
  rfl

/-- The scatter-add of the rows: entry (k, d) is lane d of the sum of the rows whose word is k. -/
theorem v8_eq (k : S64x256.Idx) : Read.val_main_v8 (F := Ideal) x lab k = segSum x lab 0 262144 (k 0).val (k 1) := by
  have hk : (k 0).val < 64 := (k 0).isLt
  unfold Read.val_main_v8
  show Read.val_main_v6 (F := Ideal) k
      + ∑ j ∈ Finset.univ.filter (fun j => scatter_S64x256_S262144x1_S262144x256_1_0_0_1.resultIdx? j
          (Read.val_main_v7 (F := Ideal) lab) = some k), x j = _
  rw [Read.val_main_v6_apply, Read.val_main_cst_2_apply, Ideal.ofBits_def, Ideal.ofBits_zero_f32, zero_add,
    Finset.sum_filter, sum_idx2]
  unfold segSum
  refine Finset.sum_congr rfl fun a _ => ?_
  have hcond : ∀ b : Fin 256, (scatter_S64x256_S262144x1_S262144x256_1_0_0_1.resultIdx? (ix2 a b)
      (Read.val_main_v7 (F := Ideal) lab) = some k) ↔ (cls lab a = (k 0).val ∧ b = k 1) := by
    intro b
    rw [scat2_resultIdx]
    show (Read.val_main_v7 (F := Ideal) lab (ix2 a 0)).toInt = ((k 0).val : Int) ∧ b = k 1 ↔ _
    rw [v7_apply, toInt_eq_natCast_iff _ _ (by omega)]
    rfl
  have hrange : (0 ≤ a.val ∧ a.val < 262144 ∧ cls lab a = (k 0).val) ↔ cls lab a = (k 0).val :=
    ⟨fun h => h.2.2, fun h => ⟨Nat.zero_le _, a.isLt, h⟩⟩
  rw [if_congr hrange rfl rfl]
  by_cases hc : cls lab a = (k 0).val
  · -- of the 256 lanes only lane k 1 lands on (k 0, k 1)
    rw [if_pos hc]
    refine (Finset.sum_eq_single (k 1) (fun b _ hb => if_neg (fun h => hb ((hcond b).1 h).2))
      (fun h => absurd (Finset.mem_univ _) h)).trans ?_
    exact if_pos ((hcond (k 1)).2 ⟨hc, rfl⟩)
  · rw [if_neg hc]
    exact Finset.sum_eq_zero (fun b _ => if_neg (fun h => hc ((hcond b).1 h).1))

/-- The centroids. -/
theorem v11_eq (k : S64x256.Idx) : Read.val_main_v11 (F := Ideal) x lab k = centroid x lab (k 0).val (k 1) := by
  rw [Read.val_main_v11_apply, v8_eq, Read.val_main_v10_apply, Read.val_main_v9_apply, v5_eq]
  rfl

variable (hl : ∀ i : Fin 262144, cls lab i < 64)
include hl

/-- A word below 64 is not negative, so the wrap-around select keeps it. -/
theorem v16_eq (a : Fin 262144) : Read.val_main_v16 (F := Ideal) lab (ix1 a) = lab (ix1 a) := by
  rw [Read.val_main_v16_apply, Read.val_main_v13_apply, Read.val_main_v12_apply, Read.val_main_c_apply]
  have h : IntOp.cmpi .slt (lab (ix1 a)) 0#32 = 0#1 := by
    have h64 := hl a
    unfold cls at h64
    have h0 : (0#32 : BitVec 32).toInt = 0 := by decide
    have h1 : (lab (ix1 a)).toInt = ((lab (ix1 a)).toNat : Int) := by
      rw [BitVec.toInt_eq_toNat_cond]; split <;> omega
    show BitVec.ofBool (decide ((lab (ix1 a)).toInt < (0#32 : BitVec 32).toInt)) = 0#1
    rw [h0, h1, decide_eq_false (by omega)]
    rfl
  rw [h, select_zero]

/-- The selected words as a column: entry (i, 0) is row i's word. -/
theorem v17_apply (a : Fin 262144) : Read.val_main_v17 (F := Ideal) lab (ix2 a 0) = lab (ix1 a) := by
  rw [Read.val_main_v17_apply]
  have : Read.idx_main_v17 (ix2 a (0 : Fin 1)) = ix1 a := by
    funext d
    match d with
    | ⟨0, _⟩ => rfl
  rw [this, v16_eq lab hl]

/-- The gather: row i reads the centroid of its class. -/
theorem v18_eq (a : Fin 262144) (b : Fin 256) :
    Read.val_main_v18 (F := Ideal) x lab (ix2 a b) = centroid x lab (cls lab a) b := by
  unfold Read.val_main_v18
  rw [gather_apply, v11_eq]
  show centroid x lab (min (Read.val_main_v17 (F := Ideal) lab (ix2 a 0)).toInt.toNat 63) b = _
  rw [v17_apply lab hl]
  congr 1
  have h64 := hl a
  unfold cls at h64 ⊢
  rw [BitVec.toInt_eq_toNat_cond]
  split <;> omega

/-- The squared distance to the class centroid. -/
theorem v20_eq (a : Fin 262144) (b : Fin 256) :
    Read.val_main_v20 (F := Ideal) x lab (ix2 a b)
      = (centroid x lab (cls lab a) b - feat x a b) * (centroid x lab (cls lab a) b - feat x a b) := by
  rw [Read.val_main_v20_apply, Read.val_main_v19_apply, v18_eq x lab hl]
  rfl

end Stages2

/-- The reference's last stage, as a function of its two arguments, is the two-pass loss at every (the only) index,
    when every class word is below 64. -/
theorem val_eq (x : SX.Idx → EReal) (lab : SL.Idx → BitVec 32) (hl : ∀ i : Fin 262144, cls lab i < 64) :
    Cert.ReferenceIdeal.Read.val_main_v22 (F := Ideal) x lab = fun _ => refVal x lab := by
  funext i
  have hnum : ∑ j, Read.val_main_v20 (F := Ideal) x lab j = refNum x lab := by
    rw [sum_idx2]
    unfold refNum
    exact Finset.sum_congr rfl fun a _ => Finset.sum_congr rfl fun b _ => v20_eq x lab hl a b
  rw [Read.val_main_v22_apply, Read.val_main_v21_apply, Read.val_main_cst_4_apply, Read.val_main_cst_5_apply, hnum,
    Ideal.ofBits_def, Ideal.ofBits_zero_f32, zero_add]
  rfl

/-- The reference's run ends with its result at the two-pass loss of its arguments, the arguments unchanged. -/
theorem run (m : (ℓ : Loc nD τ sig) → Buf (Elt Ideal) ℓ) (ρ : Dev nD → PrngReg)
    (hl : ∀ c : Dev nD, ∀ i : Fin 262144, cls (m ((c.tc : Thread nD τ).loc main_arg1)) i < 64) :
    θ_run (defs (F := Ideal)) (onTc (τ := τ) (main (F := Ideal))) ⟨m, fun _ => 0, ρ⟩ fun r => ∀ c : Dev nD,
      r.2.mem ((c.tc : Thread nD τ).loc main_v22)
          = (fun _ => refVal (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run (defs (F := Ideal)) _ _).mono
    (fun _ h c => ⟨(h c).1.trans ((Read.val_main_v22_eq _ _).trans (val_eq _ _ (hl c))), (h c).2⟩)
    (Cert.ReferenceIdeal.Value.run (F := Ideal) m ρ)

end Cert.CenterLoss.Ref

end
-- ==== Proof.KernelPieces.lean ====
/-
  What one grid point of the one-pass kernel leaves behind, as values.

  The kernel walks the 32 row tiles in order; 16 tiles make one half of the rows. It keeps two accumulators between
  tiles: a [64, 256] array of per-class sums and a [1, 1] sum of squares. The first tile of a half stores zeros into
  both and then adds the tile's contribution; every other tile adds its contribution to what the tile before left; the
  last tile of a half also copies both accumulators into the half's block of the two outputs. Each lemma below says
  which pure term of the tile's two input blocks (and of the accumulators' previous contents) one of these buffers
  holds after the tile: the zero stored first is read back by the update that follows it, and an output's block is a
  copy of the accumulator as just updated.
-/
import proofs.«430246_j9388798509687_3_alg».proof.Proof.Gen.KernelIdeal.Frame
import Idealize.ShloMosaic.Lib.Pipeline.Value
import Idealize.ShloMosaic.Lib.Tactic

set_option maxRecDepth 16384

noncomputable section

namespace Cert.CenterLoss.Ker

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable (c : Dev nD) (i : grid0.Coords) (a2 : Memref sig .tc .vmem S1x8192 .i32) (h2 : a2.IsWhole)
    (a3 : Memref sig .tc .vmem S8192x256 .f32) (h3 : a3.IsWhole) (a4 : Memref sig .tc .vmem S1x64x256 .f32) (h4 : a4.IsWhole)
    (a5 : Memref sig .tc .vmem S1x1x1 .f32) (h5 : a5.IsWhole) (a6 : Memref sig .tc .vmem S64x256 .f32) (h6 : a6.IsWhole)
    (a7 : Memref sig .tc .vmem S1x1 .f32) (h7 : a7.IsWhole)
    (x0 : Vec F S1x8192 .i32) (x1 : Vec F S8192x256 .f32) (xs0 : Vec F S64x256 .f32) (xs1 : Vec F S1x1 .f32)

/-- A middle tile leaves in the class-sum accumulator what it held plus the tile's one-hot product. -/
theorem scratchS_B (hc0 : ¬cond0_0 i) (hc1 : ¬cond0_1 i) :
    sout0_B_0 c i a2 h2 a3 h3 a4 h4 a5 h5 a6 h6 a7 h7 hc0 hc1 x0 x1 xs0 xs1 = k0_pay3 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, View.ld_unit_zero (S := S1x8192) hz2,
    View.ld_unit_zero (S := S8192x256) hz2, View.ld_unit_zero (S := S64x256) hz2]

/-- A middle tile leaves in the squares accumulator what it held plus the tile's sum of squares. -/
theorem scratchQ_B (hc0 : ¬cond0_0 i) (hc1 : ¬cond0_1 i) :
    sout0_B_1 c i a2 h2 a3 h3 a4 h4 a5 h5 a6 h6 a7 h7 hc0 hc1 x0 x1 xs0 xs1 = k0_pay4 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h3.read_unread, h7.read_unread, View.ld_unit_zero (S := S8192x256) hz2,
    View.ld_unit_zero (S := S1x1) hz2]

/-- The first tile of a half resets the class-sum accumulator and leaves the tile's one-hot product over the reset. -/
theorem scratchS_A (hc0 : cond0_0 i) (hc1 : ¬cond0_1 i) :
    sout0_A_0 c i a2 h2 a3 h3 a4 h4 a5 h5 a6 h6 a7 h7 hc0 hc1 x0 x1 = k0_pay3 x0 x1 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S64x256) hz2, View.readCov_unit_zero (S := S64x256) _ hz2]
  simp only [View.readAt_eq_ld, h2.read_unread, h3.read_unread, View.ld_unit_zero (S := S1x8192) hz2,
    View.ld_unit_zero (S := S8192x256) hz2, View.ld_unit_zero (S := S64x256) hz2]

/-- The first tile of a half resets the squares accumulator and leaves the tile's sum of squares over the reset. -/
theorem scratchQ_A (hc0 : cond0_0 i) (hc1 : ¬cond0_1 i) :
    sout0_A_1 c i a2 h2 a3 h3 a4 h4 a5 h5 a6 h6 a7 h7 hc0 hc1 x0 x1 = k0_pay4 x1 k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x1) hz2, View.readCov_unit_zero (S := S1x1) _ hz2]
  simp only [View.readAt_eq_ld, h3.read_unread, View.ld_unit_zero (S := S8192x256) hz2, View.ld_unit_zero (S := S1x1) hz2]

/-- The last tile of a half updates the class-sum accumulator like a middle tile. -/
theorem scratchS_C (hc0 : ¬cond0_0 i) (hc1 : cond0_1 i) :
    sout0_C_0 c i a2 h2 a3 h3 a4 h4 a5 h5 a6 h6 a7 h7 hc0 hc1 x0 x1 xs0 xs1 = k0_pay3 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, View.ld_unit_zero (S := S1x8192) hz2,
    View.ld_unit_zero (S := S8192x256) hz2, View.ld_unit_zero (S := S64x256) hz2]

/-- The last tile of a half updates the squares accumulator like a middle tile. -/
theorem scratchQ_C (hc0 : ¬cond0_0 i) (hc1 : cond0_1 i) :
    sout0_C_1 c i a2 h2 a3 h3 a4 h4 a5 h5 a6 h6 a7 h7 hc0 hc1 x0 x1 xs0 xs1 = k0_pay4 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h3.read_unread, h7.read_unread, View.ld_unit_zero (S := S8192x256) hz2,
    View.ld_unit_zero (S := S1x1) hz2]

/-- The last tile of a half writes the updated class-sum accumulator into the first output's block. -/
theorem outS_C (hc0 : ¬cond0_0 i) (hc1 : cond0_1 i) :
    out0_C_2 c i a2 h2 a3 h3 a4 h4 a5 h5 a6 h6 a7 h7 hc0 hc1 x0 x1 xs0 xs1 = k0_pay5 (k0_pay3 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S64x256) _ hz2]
  simp only [View.readAt_eq_ld, h2.read_unread, h3.read_unread, h6.read_unread, View.ld_unit_zero (S := S1x8192) hz2,
    View.ld_unit_zero (S := S8192x256) hz2, View.ld_unit_zero (S := S64x256) hz2]

/-- The last tile of a half writes the updated squares accumulator into the second output's block. -/
theorem outQ_C (hc0 : ¬cond0_0 i) (hc1 : cond0_1 i) :
    out0_C_3 c i a2 h2 a3 h3 a4 h4 a5 h5 a6 h6 a7 h7 hc0 hc1 x0 x1 xs0 xs1 = k0_pay6 (k0_pay4 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1x1) _ hz2]
  simp only [View.readAt_eq_ld, h3.read_unread, h7.read_unread, View.ld_unit_zero (S := S8192x256) hz2,
    View.ld_unit_zero (S := S1x1) hz2]

end Pieces

end Cert.CenterLoss.Ker

end
-- ==== Proof.KernelChain.lean ====
/-
  The two accumulators of the one-pass kernel, tile after tile.

  `accS n` and `accQ n` are what the class-sum accumulator and the squares accumulator hold after tile `n` (tiles are
  numbered 0 to 31 in the order the grid visits them): the tile's update applied to zeros when `n` is the first tile
  of a half of the rows (`n` divisible by 16), and to what tile `n - 1` left otherwise. The frame's own record of
  what each point leaves is shown to be these by induction on the tile; the last tile of a half (remainder 15) also
  leaves copies of both in its output blocks.
-/
import proofs.«430246_j9388798509687_3_alg».proof.Proof.KernelPieces

set_option maxRecDepth 16384

noncomputable section

namespace Cert.CenterLoss.Ker

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The class words of tile `t`: the tile's block of the words laid out as one row. -/
abbrev lblk (c : Dev nD) (t : Fin cfg0.N) : Vec F S1x8192 .i32 := iblk m c 0 t
/-- The features of tile `t`: the tile's 8192 rows. -/
abbrev xblk (c : Dev nD) (t : Fin cfg0.N) : Vec F S8192x256 .f32 := iblk m c 1 t

/-- The class-sum accumulator after tile `n`. -/
def accS (c : Dev nD) : (n : ℕ) → n < cfg0.N → Vec F S64x256 .f32
  | 0, h => k0_pay3 (lblk m c ⟨0, h⟩) (xblk m c ⟨0, h⟩) k0_pay1
  | n + 1, h => k0_pay3 (lblk m c ⟨n + 1, h⟩) (xblk m c ⟨n + 1, h⟩)
      (if (n + 1) % 16 = 0 then k0_pay1 else accS c n (Nat.lt_of_succ_lt h))

/-- The squares accumulator after tile `n`. -/
def accQ (c : Dev nD) : (n : ℕ) → n < cfg0.N → Vec F S1x1 .f32
  | 0, h => k0_pay4 (xblk m c ⟨0, h⟩) k0_pay2
  | n + 1, h => k0_pay4 (xblk m c ⟨n + 1, h⟩)
      (if (n + 1) % 16 = 0 then k0_pay2 else accQ c n (Nat.lt_of_succ_lt h))

/-- After every tile the two carried buffers hold the two accumulators. -/
theorem scratch_eq (c : Dev nD) : ∀ (n : ℕ) (h : n < cfg0.N),
    (outsAt0 m c n h).2.2.1 = accS m c n h ∧ (outsAt0 m c n h).2.2.2 = accQ m c n h
  | 0, h => by
    rw [outsAt0_A m c ⟨0, h⟩ (Nat.zero_mod _) (by show ¬(0 % 16 = 15); decide)]
    dsimp only
    exact ⟨scratchS_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) scM0_1 (Memref.isWhole_whole _) (iblk m c 0 ⟨0, h⟩) (iblk m c 1 ⟨0, h⟩) _ _,
      scratchQ_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) scM0_1 (Memref.isWhole_whole _) (iblk m c 0 ⟨0, h⟩) (iblk m c 1 ⟨0, h⟩) _ _⟩
  | n + 1, h => by
    have ih := scratch_eq c n (Nat.lt_of_succ_lt h)
    have hN : cfg0.N = 32 := N_0
    by_cases h0 : (n + 1) % 16 = 0
    · have h1 : ¬(n + 1) % 16 = 15 := by omega
      rw [outsAt0_A m c ⟨n + 1, h⟩ h0 h1]
      dsimp only
      unfold accS accQ
      rw [if_pos h0, if_pos h0]
      exact ⟨scratchS_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) _ _,
        scratchQ_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩) _ _⟩
    · by_cases h1 : (n + 1) % 16 = 15
      · rw [outsAt0_C m c ⟨n + 1, h⟩ h0 h1]
        dsimp only
        unfold accS accQ
        rw [if_neg h0, if_neg h0, ← ih.1, ← ih.2]
        exact ⟨scratchS_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
            (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
            (outsAt0 m c n (Nat.lt_of_succ_lt h)).2.2.1 (outsAt0 m c n (Nat.lt_of_succ_lt h)).2.2.2 _ _,
          scratchQ_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
            (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
            (outsAt0 m c n (Nat.lt_of_succ_lt h)).2.2.1 (outsAt0 m c n (Nat.lt_of_succ_lt h)).2.2.2 _ _⟩
      · rw [outsAt0_B m c ⟨n + 1, h⟩ h0 h1]
        dsimp only
        unfold accS accQ
        rw [if_neg h0, if_neg h0, ← ih.1, ← ih.2]
        exact ⟨scratchS_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
            (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
            (outsAt0 m c n (Nat.lt_of_succ_lt h)).2.2.1 (outsAt0 m c n (Nat.lt_of_succ_lt h)).2.2.2 _ _,
          scratchQ_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
            (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
            (outsAt0 m c n (Nat.lt_of_succ_lt h)).2.2.1 (outsAt0 m c n (Nat.lt_of_succ_lt h)).2.2.2 _ _⟩

/-- The last tile of a half leaves copies of the two accumulators in its blocks of the two outputs. -/
theorem out_eq (c : Dev nD) : ∀ (n : ℕ) (h : n < cfg0.N), n % 16 = 15 →
    (outsAt0 m c n h).1 = k0_pay5 (accS m c n h) ∧ (outsAt0 m c n h).2.1 = k0_pay6 (accQ m c n h)
  | 0, h, h1 => absurd h1 (by decide)
  | n + 1, h, h1 => by
    have ih := scratch_eq m c n (Nat.lt_of_succ_lt h)
    have h0 : ¬(n + 1) % 16 = 0 := by omega
    rw [outsAt0_C m c ⟨n + 1, h⟩ h0 h1]
    dsimp only
    unfold accS accQ
    rw [if_neg h0, if_neg h0, ← ih.1, ← ih.2]
    exact ⟨outS_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
        (outsAt0 m c n (Nat.lt_of_succ_lt h)).2.2.1 (outsAt0 m c n (Nat.lt_of_succ_lt h)).2.2.2 _ _,
      outQ_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) scM0_1 (Memref.isWhole_whole _) (iblk m c 0 ⟨n + 1, h⟩) (iblk m c 1 ⟨n + 1, h⟩)
        (outsAt0 m c n (Nat.lt_of_succ_lt h)).2.2.1 (outsAt0 m c n (Nat.lt_of_succ_lt h)).2.2.2 _ _⟩

end Cert.CenterLoss.Ker

end
-- ==== Proof.KernelTile.lean ====
/-
  One tile of the one-pass kernel, read at an index over the extended reals.

  A tile is 8192 rows of 256 lanes together with the rows' class words. The kernel forms the 64 × 8192 one-hot
  matrix of the words (entry 1 where the row's word is the class, else 0; the conversions to and from the
  sixteen-bit format are the identity here) and multiplies it into the tile, so that the update of the class-sum
  accumulator at (class, lane) adds the sum over the tile's rows of the entries of the rows of that class: a
  product 1 · x is x and 0 · x is 0 for every extended real x, so nothing is asked of the entries. The update of
  the squares accumulator adds the sum, lane by lane and then over the lanes, of the squares of the tile's entries.
-/
import proofs.«430246_j9388798509687_3_alg».proof.Proof.Gen.KernelIdeal.Skeleton
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

open scoped BigOperators

namespace Cert.CenterLoss.Ker

open Cert.KernelIdeal Cert.KernelIdeal.Gen Idealize.ShloMosaic Idealize.ShloMosaic.ValueIdx

/-! ## The operand indices of the one-hot product -/

theorem lhs_0 (j : S64x256.Idx) (q : dot_S64x8192_S8192x256_S64x256_1_0_0_1_n_n.contr.Idx) :
    (dot_S64x8192_S8192x256_S64x256_1_0_0_1_n_n.lhsIdx j q 0).val = (j 0).val := rfl
theorem lhs_1 (j : S64x256.Idx) (q : dot_S64x8192_S8192x256_S64x256_1_0_0_1_n_n.contr.Idx) :
    (dot_S64x8192_S8192x256_S64x256_1_0_0_1_n_n.lhsIdx j q 1).val = (q ⟨0, by decide⟩).val := rfl
theorem rhs_0 (j : S64x256.Idx) (q : dot_S64x8192_S8192x256_S64x256_1_0_0_1_n_n.contr.Idx) :
    (dot_S64x8192_S8192x256_S64x256_1_0_0_1_n_n.rhsIdx j q 0).val = (q ⟨0, by decide⟩).val := rfl
theorem rhs_1 (j : S64x256.Idx) (q : dot_S64x8192_S8192x256_S64x256_1_0_0_1_n_n.contr.Idx) :
    (dot_S64x8192_S8192x256_S64x256_1_0_0_1_n_n.rhsIdx j q 1).val = (j 1).val := rfl

/-! ## The one-hot entry -/

/-- A 32-bit word is the word of a class number exactly when its value is that number. -/
theorem ofNat_eq_iff (k : Fin 64) (w : BitVec 32) : BitVec.ofNat 32 k.val = w ↔ w.toNat = k.val := by
  have hk := k.isLt
  constructor
  · rintro rfl
    rw [BitVec.toNat_ofNat]; omega
  · intro h
    apply BitVec.eq_of_toNat_eq
    rw [BitVec.toNat_ofNat, h]; omega

/-- The equality bit of two words, widened and converted, is the real number 1 or 0. -/
theorem eqBit_real (a b : BitVec 32) :
    ((((IntOp.cmpi .eq a b).setWidth 32).toInt : ℝ) : EReal) = if a = b then 1 else 0 := by
  by_cases h : a = b
  · rw [if_pos h, StableHlo.Predicate.cmpi_eq_iff.mpr h]
    norm_num
  · have h0 : IntOp.cmpi .eq a b = 0#1 := eq_zero_of_ne_one fun h1 => h (StableHlo.Predicate.cmpi_eq_iff.mp h1)
    rw [if_neg h, h0]
    norm_num

/-- The class words broadcast down the 64 class rows read, at (class, row), the row's word. -/
theorem bcastWords_apply (L : Vec Ideal S1x8192 .i32) (k : Fin 64) (r : Fin 8192) :
    broadcastTo S64x8192 L broadcasts_S1x8192_S64x8192 (ix2 k r) = L (ix2 0 r) := by
  exact broadcastTo_apply L _ (ix2 k r) (ix2 0 r) fun a => by
    match a with
    | ⟨0, _⟩ => rfl
    | ⟨1, _⟩ => rfl

/-- The class number down the rows: at (class, row), the word of the class. -/
theorem iotaClass_apply (k : Fin 64) (r : Fin 8192) :
    iota .tc S64x8192 32 [0] iota_S64x8192_d0_w32 (ix2 k r) = BitVec.ofNat 32 k.val := by
  show BitVec.ofNat 32 (0 * 64 + k.val) = _
  rw [Nat.zero_mul, Nat.zero_add]

/-- The one-hot matrix of a tile: at (class, row) it is 1 when the row's word is the class and 0 otherwise. -/
theorem oneHot_apply (L : Vec Ideal S1x8192 .i32) (k : Fin 64) (r : Fin 8192) :
    (truncf .bf16 (sitofp .f32 (extui 32 (cmpi .eq (iota .tc S64x8192 32 [0] iota_S64x8192_d0_w32)
        (broadcastTo S64x8192 L broadcasts_S1x8192_S64x8192)) natLt_1_32))
      bitsLt_bf16_f32 : FVec Ideal S64x8192 .bf16) (ix2 k r)
      = if (L (ix2 0 r)).toNat = k.val then 1 else 0 := by
  show ((((IntOp.cmpi .eq (iota .tc S64x8192 32 [0] iota_S64x8192_d0_w32 (ix2 k r))
      (broadcastTo S64x8192 L broadcasts_S1x8192_S64x8192 (ix2 k r))).setWidth 32).toInt : ℝ) : EReal) = _
  rw [iotaClass_apply, bcastWords_apply, eqBit_real]
  by_cases h : (L (ix2 0 r)).toNat = k.val
  · rw [if_pos h, if_pos ((ofNat_eq_iff k _).mpr h)]
  · rw [if_neg h, if_neg fun h' => h ((ofNat_eq_iff k _).mp h')]

/-- THE TILE'S CLASS SUMS. The update of the class-sum accumulator, at (class, lane): what the accumulator held there
    plus the sum over the tile's rows of the entries of the rows whose word is the class. -/
theorem pay3_apply (L : Vec Ideal S1x8192 .i32) (X : Vec Ideal S8192x256 .f32) (A : Vec Ideal S64x256 .f32) (k : Fin 64) (d : Fin 256) :
    k0_pay3 (F := Ideal) L X A (ix2 k d)
      = A (ix2 k d) + ∑ r : Fin 8192, if (L (ix2 0 r)).toNat = k.val then X (ix2 r d) else 0 := by
  unfold k0_pay3
  simp only [shapeCast_self]
  rw [addf_apply]
  congr 1
  simp only [matmul]
  rw [Ideal.matmul_constant_zero_apply,
    ← Equiv.sum_comp (contrEquiv1 dot_S64x8192_S8192x256_S64x256_1_0_0_1_n_n 8192 rfl rfl).symm]
  refine Finset.sum_congr rfl fun r _ => ?_
  have hq := contrEquiv1_symm_val dot_S64x8192_S8192x256_S64x256_1_0_0_1_n_n 8192 rfl rfl r
  have hl : dot_S64x8192_S8192x256_S64x256_1_0_0_1_n_n.lhsIdx (ix2 k d)
      ((contrEquiv1 dot_S64x8192_S8192x256_S64x256_1_0_0_1_n_n 8192 rfl rfl).symm r) = ix2 k r :=
    funext fun a => Fin.ext (by
      match a with
      | ⟨0, _⟩ => exact lhs_0 _ _
      | ⟨1, _⟩ => exact (lhs_1 _ _).trans hq)
  have hr : dot_S64x8192_S8192x256_S64x256_1_0_0_1_n_n.rhsIdx (ix2 k d)
      ((contrEquiv1 dot_S64x8192_S8192x256_S64x256_1_0_0_1_n_n 8192 rfl rfl).symm r) = ix2 r d :=
    funext fun a => Fin.ext (by
      match a with
      | ⟨0, _⟩ => exact (rhs_0 _ _).trans hq
      | ⟨1, _⟩ => exact rhs_1 _ _)
  rw [hl, hr, oneHot_apply, truncf_apply]
  by_cases h : (L (ix2 0 r)).toNat = k.val
  · rw [if_pos h, if_pos h, one_mul]
  · rw [if_neg h, if_neg h, zero_mul]

/-- The sum of a tile down its rows, at lane `d`. -/
theorem rowsSum_apply (v : FVec Ideal S8192x256 .f32) (hφ : FKind.Formats .f32)
    (hacc : (0x00000000#32 : BitVec 32) = 0x00000000#32) (d : Fin 256) :
    multiReduction .add [0] S256 v 0x00000000#32 reduces_S8192x256_S256 hφ hacc (ix1 d) = ∑ r : Fin 8192, v (ix2 r d) :=
  (Ideal.multiReduction_add_single v 0x00000000#32 reduces_S8192x256_S256 hφ hacc (ix1 d)).trans
    (Finset.sum_congr rfl fun r _ => congrArg v (funext fun a => by
      match a with
      | ⟨0, _⟩ => rfl
      | ⟨1, _⟩ => rfl))

/-- The sum of a row of 256 lanes. -/
theorem lanesSum_apply (v : FVec Ideal S1x256 .f32) (hφ : FKind.Formats .f32)
    (hacc : (0x00000000#32 : BitVec 32) = 0x00000000#32) :
    multiReduction .add [1] S1 v 0x00000000#32 reduces_S1x256_S1 hφ hacc (ix1 0) = ∑ d : Fin 256, v (ix2 0 d) :=
  (Ideal.multiReduction_add_single v 0x00000000#32 reduces_S1x256_S1 hφ hacc (ix1 0)).trans
    (Finset.sum_congr rfl fun d _ => congrArg v (funext fun a => by
      match a with
      | ⟨0, _⟩ => rfl
      | ⟨1, _⟩ => rfl))

/-- THE TILE'S SQUARES. The update of the squares accumulator: what it held plus the sum, over lanes then rows, of the
    squares of the tile's entries. -/
theorem pay4_apply (X : Vec Ideal S8192x256 .f32) (a : Vec Ideal S1x1 .f32) :
    k0_pay4 (F := Ideal) X a (ix2 0 0) = a (ix2 0 0) + ∑ d : Fin 256, ∑ r : Fin 8192, X (ix2 r d) * X (ix2 r d) := by
  unfold k0_pay4
  simp only [shapeCast_self]
  rw [addf_apply]
  congr 1
  refine (shapeCast_apply _ _ (ix2 0 0) (ix1 0) rfl).trans ?_
  refine (lanesSum_apply _ _ _).trans ?_
  refine Finset.sum_congr rfl fun d _ => ?_
  refine (shapeCast_apply _ _ (ix2 0 d) (ix1 d) ?_).trans ?_
  · rw [Shape.rowMajor_val_one, Shape.rowMajor_val_two]
    show d.val = 0 * 256 + d.val
    omega
  · exact rowsSum_apply _ _ _ d

/-- The reset of the class-sum accumulator stores zero everywhere. -/
theorem pay1_apply (j : S64x256.Idx) : k0_pay1 (F := Ideal) j = 0 := by
  unfold k0_pay1
  simp only [shapeCast_self]
  show Ideal.ofBits .f32 0x00000000#32 = 0
  exact Ideal.ofBits_zero_f32

/-- The reset of the squares accumulator stores zero. -/
theorem pay2_apply (j : S1x1.Idx) : k0_pay2 (F := Ideal) j = 0 := by
  unfold k0_pay2
  simp only [shapeCast_self]
  show Ideal.ofBits .f32 0x00000000#32 = 0
  exact Ideal.ofBits_zero_f32

/-- A half's block of the first output is the class-sum accumulator with a unit axis in front. -/
theorem pay5_apply (v : Vec Ideal S64x256 .f32) (k : Fin 64) (d : Fin 256) :
    k0_pay5 (F := Ideal) v (ix3 0 k d) = v (ix2 k d) := by
  unfold k0_pay5
  refine (shapeCast_apply _ _ (ix3 0 k d) (ix2 k d) ?_).trans rfl
  rw [Shape.rowMajor_val_two, Shape.rowMajor_val_three]
  show k.val * 256 + d.val = (0 * 64 + k.val) * 256 + d.val
  omega

/-- A half's block of the second output is the squares accumulator with a unit axis in front. -/
theorem pay6_apply (v : Vec Ideal S1x1 .f32) : k0_pay6 (F := Ideal) v (ix3 0 0 0) = v (ix2 0 0) := by
  unfold k0_pay6
  refine (shapeCast_apply _ _ (ix3 0 0 0) (ix2 0 0) ?_).trans rfl
  rw [Shape.rowMajor_val_two, Shape.rowMajor_val_three]
  rfl

end Cert.CenterLoss.Ker

end
-- ==== Proof.KernelIface.lean ====
/-
  The one-pass program's region, as an interface: what its two output arrays are to hold when the region ends.
  The first holds, per half of the rows, the per-class sums of the rows; the second, per half, the sum of all squares.
-/
import proofs.«430246_j9388798509687_3_alg».proof.Proof.Gen.KernelIdeal.Frame
import proofs.«430246_j9388798509687_3_alg».proof.Proof.Spec

noncomputable section

open scoped BigOperators

namespace Cert.CenterLoss.Ker

open Cert.KernelIdeal Cert.KernelIdeal.Gen Idealize.ShloMosaic Idealize.ShloMosaic.TcCoe Idealize.SL.Sem
open Idealize.ShloMosaic.ValueIdx Cert.CenterLoss

variable (m : (ℓ : Loc nD τ sig) → Buf (Elt Ideal) ℓ)

/-- The feature array core `c` is launched with. -/
abbrev xOf (c : Dev nD) : SX.Idx → EReal := m ((c.tc : Thread nD τ).loc main_arg0)
/-- The class words core `c` is launched with. -/
abbrev labOf (c : Dev nD) : SL.Idx → BitVec 32 := m ((c.tc : Thread nD τ).loc main_arg1)

/-- What the region is to leave in its first output array: per half of the rows, the per-class sums. -/
def RegionSums : Prop := ∀ c : Dev nD,
  ((dats (F := Ideal) m 0 c).arrAt 2 cfg0.N : S2x64x256.Idx → EReal)
    = fun j => segSum (xOf m c) (labOf m c) ((j 0).val * 131072) ((j 0).val * 131072 + 131072) (j 1).val (j 2)

/-- What the region is to leave in its second output array: per half of the rows, the sum of squares. -/
def RegionSquares : Prop := ∀ c : Dev nD,
  ((dats (F := Ideal) m 0 c).arrAt 3 cfg0.N : S2x1x1.Idx → EReal)
    = fun j => sqSum (xOf m c) ((j 0).val * 131072) ((j 0).val * 131072 + 131072)

end Cert.CenterLoss.Ker

end
-- ==== Proof.SpecRange.lean ====
/-
  Row ranges, one tile at a time.

  The 262144 rows come in 32 tiles of 8192: row `r` of tile `t` is row `t · 8192 + r`. Extending a row range that ends
  where tile `t` begins by that tile adds the tile's own contribution to a range sum: for the per-class sums, the
  entries of the tile's rows of the class; for the sum of squares, the squares of the tile's entries. A range that
  ends where it begins contributes nothing.
-/
import proofs.«430246_j9388798509687_3_alg».proof.Proof.Spec

noncomputable section

open scoped BigOperators

namespace Cert.CenterLoss

open Idealize.ShloMosaic Idealize.ShloMosaic.ValueIdx

/-- Row `r` of tile `t`. -/
def tileRow (t : ℕ) (ht : t < 32) (r : Fin 8192) : Fin 262144 := ⟨t * 8192 + r.val, by have := r.isLt; omega⟩

/-- Distinct rows of a tile are distinct rows of the array. -/
theorem tileRow_injective (t : ℕ) (ht : t < 32) : Function.Injective (tileRow t ht) := by
  intro a b h
  have hv := congrArg Fin.val h
  simp only [tileRow] at hv
  exact Fin.ext (by omega)

/-- The rows `i` with `t · 8192 ≤ i < (t + 1) · 8192` are exactly the rows of tile `t`. -/
theorem filter_tile_eq_map (t : ℕ) (ht : t < 32) :
    (Finset.univ.filter fun i : Fin 262144 => t * 8192 ≤ i.val ∧ i.val < (t + 1) * 8192)
      = Finset.univ.map ⟨tileRow t ht, tileRow_injective t ht⟩ := by
  ext i
  simp only [Finset.mem_filter, Finset.mem_univ, true_and, Finset.mem_map, Function.Embedding.coeFn_mk]
  constructor
  · rintro ⟨h1, h2⟩
    refine ⟨⟨i.val - t * 8192, by omega⟩, ?_⟩
    apply Fin.ext
    simp only [tileRow]
    omega
  · rintro ⟨r, rfl⟩
    have hr := r.isLt
    simp only [tileRow]
    constructor <;> omega

/-- A sum over all rows of a term that vanishes outside tile `t` is the sum over the tile's 8192 rows. -/
theorem sum_tile_range (t : ℕ) (ht : t < 32) (g : Fin 262144 → EReal) :
    (∑ i : Fin 262144, if t * 8192 ≤ i.val ∧ i.val < (t + 1) * 8192 then g i else 0)
      = ∑ r : Fin 8192, g (tileRow t ht r) := by
  rw [← Finset.sum_filter, filter_tile_eq_map t ht, Finset.sum_map]
  rfl

variable (x : SX.Idx → EReal) (lab : SL.Idx → BitVec 32)

/-- An empty range of rows has no class sums. -/
theorem segSum_self (lo k : ℕ) (d : Fin 256) : segSum x lab lo lo k d = 0 := by
  unfold segSum
  refine Finset.sum_eq_zero fun i _ => ?_
  have h : ¬ (lo ≤ i.val ∧ i.val < lo ∧ cls lab i = k) := by
    intro hh
    have h1 := hh.1
    have h2 := hh.2.1
    omega
  rw [if_neg h]

/-- An empty range of rows has no squares. -/
theorem sqSum_self (lo : ℕ) : sqSum x lo lo = 0 := by
  unfold sqSum
  refine Finset.sum_eq_zero fun i _ => ?_
  have h : ¬ (lo ≤ i.val ∧ i.val < lo) := by
    intro hh
    have h1 := hh.1
    have h2 := hh.2
    omega
  rw [if_neg h]

/-- Pointwise split of a range `[lo, H)` at a point `T` with `lo ≤ T ≤ H` into `[lo, T)` and `[T, H)`
    (with a further side condition `C` on the row). -/
theorem ite_range_split_at (lo T H : ℕ) (hlo : lo ≤ T) (hTH : T ≤ H) (v : ℕ) (C : Prop) [Decidable C] (a : EReal) :
    (if lo ≤ v ∧ v < H ∧ C then a else 0)
      = (if lo ≤ v ∧ v < T ∧ C then a else 0)
        + (if T ≤ v ∧ v < H then (if C then a else 0) else 0) := by
  by_cases h : v < T
  · have h1 : v < H := lt_of_lt_of_le h hTH
    have h2 : ¬ (T ≤ v ∧ v < H) := fun hh => absurd h (not_lt.mpr hh.1)
    rw [if_neg h2, add_zero]
    by_cases hl : lo ≤ v
    · by_cases hC : C
      · rw [if_pos ⟨hl, h1, hC⟩, if_pos ⟨hl, h, hC⟩]
      · rw [if_neg (fun hh => hC hh.2.2), if_neg (fun hh => hC hh.2.2)]
    · rw [if_neg (fun hh => hl hh.1), if_neg (fun hh => hl hh.1)]
  · have h2 : ¬ (lo ≤ v ∧ v < T ∧ C) := fun hh => h hh.2.1
    rw [if_neg h2, zero_add]
    have hTv : T ≤ v := not_lt.mp h
    by_cases h3 : v < H
    · have h5 : lo ≤ v := le_trans hlo hTv
      rw [if_pos (c := T ≤ v ∧ v < H) ⟨hTv, h3⟩]
      by_cases hC : C
      · rw [if_pos ⟨h5, h3, hC⟩, if_pos hC]
      · rw [if_neg (fun hh => hC hh.2.2), if_neg hC]
    · have h4 : ¬ (T ≤ v ∧ v < H) := fun hh => h3 hh.2
      have h5 : ¬ (lo ≤ v ∧ v < H ∧ C) := fun hh => h3 hh.2.1
      rw [if_neg h4, if_neg h5]

/-- The same split at the start of tile `t`: `T = t · 8192`, `H = (t + 1) · 8192`. -/
theorem ite_range_split (lo t : ℕ) (hlo : lo ≤ t * 8192) (v : ℕ) (C : Prop) [Decidable C] (a : EReal) :
    (if lo ≤ v ∧ v < (t + 1) * 8192 ∧ C then a else 0)
      = (if lo ≤ v ∧ v < t * 8192 ∧ C then a else 0)
        + (if t * 8192 ≤ v ∧ v < (t + 1) * 8192 then (if C then a else 0) else 0) :=
  ite_range_split_at lo (t * 8192) ((t + 1) * 8192) hlo (Nat.mul_le_mul_right _ (Nat.le_succ t)) v C a

/-- Extending a range by tile `t` adds, to a class sum, the entries of the tile's rows of the class. -/
theorem segSum_tile (lo t : ℕ) (ht : t < 32) (hlo : lo ≤ t * 8192) (k : ℕ) (d : Fin 256) :
    segSum x lab lo ((t + 1) * 8192) k d
      = segSum x lab lo (t * 8192) k d
        + ∑ r : Fin 8192, if cls lab (tileRow t ht r) = k then feat x (tileRow t ht r) d else 0 := by
  unfold segSum
  rw [← sum_tile_range t ht (fun i => if cls lab i = k then feat x i d else 0), ← Finset.sum_add_distrib]
  exact Finset.sum_congr rfl fun i _ => ite_range_split lo t hlo i.val (cls lab i = k) (feat x i d)

/-- Extending a range by tile `t` adds, to the sum of squares, the squares of the tile's entries (lane by lane). -/
theorem sqSum_tile (lo t : ℕ) (ht : t < 32) (hlo : lo ≤ t * 8192) :
    sqSum x lo ((t + 1) * 8192)
      = sqSum x lo (t * 8192)
        + ∑ d : Fin 256, ∑ r : Fin 8192, feat x (tileRow t ht r) d * feat x (tileRow t ht r) d := by
  -- the tile's contribution, rows outermost
  have hcomm : (∑ d : Fin 256, ∑ r : Fin 8192, feat x (tileRow t ht r) d * feat x (tileRow t ht r) d)
      = ∑ r : Fin 8192, ∑ d : Fin 256, feat x (tileRow t ht r) d * feat x (tileRow t ht r) d :=
    Finset.sum_comm
  unfold sqSum
  rw [hcomm, ← sum_tile_range t ht (fun i => ∑ d : Fin 256, feat x i d * feat x i d), ← Finset.sum_add_distrib]
  refine Finset.sum_congr rfl fun i _ => ?_
  -- the split with the trivial side condition
  have h := ite_range_split lo t hlo i.val True (∑ d : Fin 256, feat x i d * feat x i d)
  simp only [and_true, if_true] at h
  exact h

end Cert.CenterLoss

end
-- ==== Proof.KernelRegion.lean ====
/-
  What the one-pass kernel's region leaves in its two output arrays.

  Tile `t` of the 32 reads rows `t · 8192 … t · 8192 + 8191` of the features and of the class words (the words
  through the one-row layout the host gives them before the region). By induction on the tile, the class-sum
  accumulator after tile `n` holds the class sums of the rows from the start of the tile's half (row
  `⌊n / 16⌋ · 131072`) to the end of the tile, and the squares accumulator the sum of squares of the same rows: the
  first tile of a half starts from zero, every other tile adds its own rows to what the tile before left. The last
  tile of a half (remainder 15) writes both into block (half, 0, 0) of the two outputs, whose rows then run over
  the whole half; the two last tiles' blocks cover the two arrays.
-/
import proofs.«430246_j9388798509687_3_alg».proof.Proof.KernelChain
import proofs.«430246_j9388798509687_3_alg».proof.Proof.KernelTile
import proofs.«430246_j9388798509687_3_alg».proof.Proof.KernelIface
import proofs.«430246_j9388798509687_3_alg».proof.Proof.SpecRange
import Idealize.ShloMosaic.Lib.StableHlo.Run

set_option maxRecDepth 16384

noncomputable section

open scoped BigOperators

namespace Cert.CenterLoss.Ker

open Cert.KernelIdeal Cert.KernelIdeal.Gen Idealize.ShloMosaic Idealize.ShloMosaic.TcCoe Idealize.SL.Sem
open Idealize.ShloMosaic.Pipeline (Dat)
open Idealize.ShloMosaic.ValueIdx Cert.CenterLoss

variable (m : (ℓ : Loc nD τ sig) → Buf (Elt Ideal) ℓ)

theorem tile_lt (t : Fin cfg0.N) : t.val < 32 := lt_of_lt_of_eq t.isLt N_0

/-- Tile `t` of the features is block (t, 0); tile `t` of the words is block (0, t). -/
theorem idxX : ∀ t : Fin cfg0.N, win0_1.index t (0 : Fin 2) = t.val ∧ win0_1.index t (1 : Fin 2) = 0 :=
  (by decide +kernel : ∀ t : Fin grid0.N, _)
theorem idxL : ∀ t : Fin cfg0.N, win0_0.index t (0 : Fin 2) = 0 ∧ win0_0.index t (1 : Fin 2) = t.val :=
  (by decide +kernel : ∀ t : Fin grid0.N, _)

/-- The features of tile `t`, at (r, d): row `t · 8192 + r`, lane `d` of the feature array. -/
theorem xblk_apply (c : Dev nD) (t : Fin cfg0.N) (r : Fin 8192) (d : Fin 256) :
    xblk m c t (ix2 r d) = feat (xOf m c) (tileRow t.val (tile_lt t) r) d := by
  unfold xblk iblk
  rw [View.read_apply]
  show V m c main_arg0 _ = m (c.tc.loc main_arg0) _
  rw [V_main_arg0]
  congr 1
  funext a
  apply Fin.ext
  match a with
  | ⟨0, _⟩ => show win0_1.index t 0 * 8192 + 1 * r.val = t.val * 8192 + r.val; rw [(idxX t).1]; omega
  | ⟨1, _⟩ => show win0_1.index t 1 * 256 + 1 * d.val = d.val; rw [(idxX t).2]; omega

/-- The region finds the class words laid out as one row of 262144. -/
theorem V_words (c : Dev nD) :
    (V m c main_v0 : S1x262144.Idx → BitVec 32) = shapeCast S1x262144 (labOf m c) shapeCasts_S262144_S1x262144 := by
  show StableHlo.after hostOps0 (fun b => m (c, b)) (Proc.devRef .tc main_v0) = _
  after_results
  rfl

/-- The words of tile `t`, at (0, r): the word of row `t · 8192 + r`. -/
theorem lblk_apply (c : Dev nD) (t : Fin cfg0.N) (r : Fin 8192) :
    lblk m c t (ix2 0 r) = labOf m c (ix1 (tileRow t.val (tile_lt t) r)) := by
  unfold lblk iblk
  rw [View.read_apply]
  show V m c main_v0 _ = _
  rw [V_words]
  refine (shapeCast_apply _ _ _ (ix1 (tileRow t.val (tile_lt t) r)) ?_).trans rfl
  rw [Shape.rowMajor_val_one, Shape.rowMajor_val_two]
  show t.val * 8192 + r.val = (win0_0.index t 0 * 1 + 1 * 0) * 262144 + (win0_0.index t 1 * 8192 + 1 * r.val)
  rw [(idxL t).1, (idxL t).2]
  omega

/-- A tile's update of the class sums, in the words of the specification. -/
theorem classStep (c : Dev nD) (t : Fin cfg0.N) (A : Vec Ideal S64x256 .f32) (k : Fin 64) (d : Fin 256) :
    k0_pay3 (F := Ideal) (lblk m c t) (xblk m c t) A (ix2 k d)
      = A (ix2 k d) + ∑ r : Fin 8192, if cls (labOf m c) (tileRow t.val (tile_lt t) r) = k.val
          then feat (xOf m c) (tileRow t.val (tile_lt t) r) d else 0 := by
  rw [pay3_apply]
  refine congrArg (A (ix2 k d) + ·) (Finset.sum_congr rfl fun r _ => ?_)
  rw [lblk_apply, xblk_apply]
  rfl

/-- A tile's update of the sum of squares, in the words of the specification. -/
theorem squareStep (c : Dev nD) (t : Fin cfg0.N) (a : Vec Ideal S1x1 .f32) :
    k0_pay4 (F := Ideal) (xblk m c t) a (ix2 0 0)
      = a (ix2 0 0) + ∑ d : Fin 256, ∑ r : Fin 8192,
          feat (xOf m c) (tileRow t.val (tile_lt t) r) d * feat (xOf m c) (tileRow t.val (tile_lt t) r) d := by
  rw [pay4_apply]
  refine congrArg (a (ix2 0 0) + ·) (Finset.sum_congr rfl fun d _ => Finset.sum_congr rfl fun r _ => ?_)
  rw [xblk_apply]

/-- After tile `n` the class-sum accumulator holds the class sums of the rows from the start of the tile's half up
    to the end of the tile. -/
theorem accS_apply (c : Dev nD) : ∀ (n : ℕ) (h : n < cfg0.N) (k : Fin 64) (d : Fin 256),
    accS m c n h (ix2 k d) = segSum (xOf m c) (labOf m c) (n / 16 * 131072) ((n + 1) * 8192) k.val d
  | 0, h, k, d => by
    unfold accS
    rw [classStep, pay1_apply, zero_add]
    have e := segSum_tile (xOf m c) (labOf m c) (0 * 8192) 0 (by decide) (le_refl _) k.val d
    rw [segSum_self] at e
    exact (e.trans (zero_add _)).symm
  | n + 1, h, k, d => by
    have h32 : n + 1 < 32 := lt_of_lt_of_eq h N_0
    unfold accS
    rw [classStep]
    have hlo : (n + 1) / 16 * 131072 ≤ (n + 1) * 8192 := by omega
    rw [segSum_tile (xOf m c) (labOf m c) ((n + 1) / 16 * 131072) (n + 1) h32 hlo k.val d]
    refine congrArg (· + _) ?_
    by_cases h0 : (n + 1) % 16 = 0
    · rw [if_pos h0, pay1_apply, show (n + 1) / 16 * 131072 = (n + 1) * 8192 from by omega, segSum_self]
    · rw [if_neg h0, accS_apply c n (Nat.lt_of_succ_lt h) k d, show n / 16 = (n + 1) / 16 from by omega]

/-- After tile `n` the squares accumulator holds the sum of squares of the same rows. -/
theorem accQ_apply (c : Dev nD) : ∀ (n : ℕ) (h : n < cfg0.N),
    accQ m c n h (ix2 0 0) = sqSum (xOf m c) (n / 16 * 131072) ((n + 1) * 8192)
  | 0, h => by
    unfold accQ
    rw [squareStep, pay2_apply, zero_add]
    have e := sqSum_tile (xOf m c) (0 * 8192) 0 (by decide) (le_refl _)
    rw [sqSum_self] at e
    exact (e.trans (zero_add _)).symm
  | n + 1, h => by
    have h32 : n + 1 < 32 := lt_of_lt_of_eq h N_0
    unfold accQ
    rw [squareStep]
    have hlo : (n + 1) / 16 * 131072 ≤ (n + 1) * 8192 := by omega
    rw [sqSum_tile (xOf m c) ((n + 1) / 16 * 131072) (n + 1) h32 hlo]
    refine congrArg (· + _) ?_
    by_cases h0 : (n + 1) % 16 = 0
    · rw [if_pos h0, pay2_apply, show (n + 1) / 16 * 131072 = (n + 1) * 8192 from by omega, sqSum_self]
    · rw [if_neg h0, accQ_apply c n (Nat.lt_of_succ_lt h), show n / 16 = (n + 1) / 16 from by omega]

/-! ## The write-backs -/

/-- At every tile both outputs' block index is (the tile's half, 0, 0). -/
theorem idxO : ∀ t : Fin cfg0.N, win0_2.index t (0 : Fin 3) = t.val / 16 ∧ win0_2.index t (1 : Fin 3) = 0
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

/-- What the first output array is to hold: per half of the rows, the per-class sums. -/
def GS (c : Dev nD) : S2x64x256.Idx → EReal := fun j =>
  segSum (xOf m c) (labOf m c) ((j 0).val * 131072) ((j 0).val * 131072 + 131072) (j 1).val (j 2)

/-- What the second output array is to hold: per half of the rows, the sum of squares. -/
def GQ (c : Dev nD) : S2x1x1.Idx → EReal := fun j =>
  sqSum (xOf m c) ((j 0).val * 131072) ((j 0).val * 131072 + 131072)

/-- `GS` at an index whose coordinates are known. -/
theorem GS_of (c : Dev nD) (j : S2x64x256.Idx) (a k : ℕ) (d : Fin 256) (h0 : (j 0).val = a) (h1 : (j 1).val = k)
    (h2 : j 2 = d) : GS m c j = segSum (xOf m c) (labOf m c) (a * 131072) (a * 131072 + 131072) k d := by
  subst h0 h1 h2; rfl

/-- `GQ` at an index whose first coordinate is known. -/
theorem GQ_of (c : Dev nD) (j : S2x1x1.Idx) (a : ℕ) (h0 : (j 0).val = a) :
    GQ m c j = sqSum (xOf m c) (a * 131072) (a * 131072 + 131072) := by
  subst h0; rfl

/-- The last tile of a half writes back the half's block of the class sums. -/
theorem flushedS (c : Dev nD) (t : Fin cfg0.N) (hf : (cfg0.win 2).flush t = true) :
    (dats m 0 c).flushed 2 t = ((cfg0.win 2).blk t).view.read (Elt Ideal) (GS m c) := by
  have h15 : t.val % 16 = 15 := (flush0_2 t).mp hf
  have h32 := tile_lt t
  have hhi : (t.val + 1) * 8192 = t.val / 16 * 131072 + 131072 := by omega
  show (cfg0.win 2).cut (grid0.coords t) ((dats m 0 c).after 2 t) = _
  rw [after0_2, (out_eq m c t.val t.isLt h15).1]
  funext y
  obtain ⟨a, k, d, rfl⟩ : ∃ (a : Fin 1) (k : Fin 64) (d : Fin 256), y = ix3 a k d := ⟨y 0, y 1, y 2, eq_ix3 y⟩
  obtain rfl : a = 0 := Subsingleton.elim _ _
  rw [View.read_apply]
  refine (pay5_apply _ k d).trans ((accS_apply m c t.val t.isLt k d).trans ?_)
  obtain ⟨i0, i1, i2, -, -, -⟩ := idxO t
  have e0 : (((cfg0.win 2).blk t).view.emb (ix3 0 k d) 0).val = t.val / 16 := by
    show win0_2.index t 0 * 1 + 1 * 0 = _; rw [i0]; omega
  have e1 : (((cfg0.win 2).blk t).view.emb (ix3 0 k d) 1).val = k.val := by
    show win0_2.index t 1 * 64 + 1 * k.val = _; rw [i1]; omega
  have e2 : ((cfg0.win 2).blk t).view.emb (ix3 0 k d) 2 = d := Fin.ext (by
    show win0_2.index t 2 * 256 + 1 * d.val = _; rw [i2]; omega)
  rw [hhi]
  simp only [cast_eq]
  exact (GS_of m c (((cfg0.win 2).blk t).view.emb (ix3 0 k d)) (t.val / 16) k.val d e0 e1 e2).symm

/-- The last tile of a half writes back the half's sum of squares. -/
theorem flushedQ (c : Dev nD) (t : Fin cfg0.N) (hf : (cfg0.win 3).flush t = true) :
    (dats m 0 c).flushed 3 t = ((cfg0.win 3).blk t).view.read (Elt Ideal) (GQ m c) := by
  have h15 : t.val % 16 = 15 := (flush0_3 t).mp hf
  have h32 := tile_lt t
  have hhi : (t.val + 1) * 8192 = t.val / 16 * 131072 + 131072 := by omega
  show (cfg0.win 3).cut (grid0.coords t) ((dats m 0 c).after 3 t) = _
  rw [after0_3, (out_eq m c t.val t.isLt h15).2]
  funext y
  obtain ⟨a, b, e, rfl⟩ : ∃ (a : Fin 1) (b : Fin 1) (e : Fin 1), y = ix3 a b e := ⟨y 0, y 1, y 2, eq_ix3 y⟩
  obtain rfl : a = 0 := Subsingleton.elim _ _
  obtain rfl : b = 0 := Subsingleton.elim _ _
  obtain rfl : e = 0 := Subsingleton.elim _ _
  rw [View.read_apply]
  refine (pay6_apply _).trans ((accQ_apply m c t.val t.isLt).trans ?_)
  obtain ⟨-, -, -, i0, -, -⟩ := idxO t
  have e0 : (((cfg0.win 3).blk t).view.emb (ix3 0 0 0) 0).val = t.val / 16 := by
    show win0_3.index t 0 * 1 + 1 * 0 = _; rw [i0]; omega
  rw [hhi]
  simp only [cast_eq]
  exact (GQ_of m c (((cfg0.win 3).blk t).view.emb (ix3 0 0 0)) (t.val / 16) e0).symm

/-- The last tile of half `j₀` is tile `16 · j₀ + 15`. -/
def lastTile (a : Fin 2) : Fin cfg0.N := ⟨a.val * 16 + 15, by rw [show cfg0.N = 32 from N_0]; have := a.isLt; omega⟩

/-- THE FIRST OUTPUT ARRAY after the region: per half of the rows, the per-class sums. -/
theorem regionSums : RegionSums m := fun c =>
  (dats m 0 c).arrAt_eq_of_cover 2 (GS m c) (flushedS m c) fun i => by
    have hi0 : (i 0).val < 2 := (i 0).isLt
    have hi1 : (i 1).val < 64 := (i 1).isLt
    have hi2 : (i 2).val < 256 := (i 2).isLt
    refine ⟨lastTile (i 0), (flush0_2 _).mpr (by show ((i 0).val * 16 + 15) % 16 = 15; omega), ?_⟩
    show i ∈ ((View.whole main_v1_0).slice (win0_2.rect (lastTile (i 0)))).set
    rw [View.set_slice_whole, Rect.mem_set_unit]
    obtain ⟨i0, i1, i2, -, -, -⟩ := idxO (lastTile (i 0))
    have hv : (lastTile (i 0)).val = (i 0).val * 16 + 15 := rfl
    intro a
    match a with
    | ⟨0, _⟩ => show win0_2.index (lastTile (i 0)) 0 * 1 ≤ (i 0).val ∧ (i 0).val < win0_2.index (lastTile (i 0)) 0 * 1 + 1
                rw [i0, hv]; omega
    | ⟨1, _⟩ => show win0_2.index (lastTile (i 0)) 1 * 64 ≤ (i 1).val ∧ (i 1).val < win0_2.index (lastTile (i 0)) 1 * 64 + 64
                rw [i1]; omega
    | ⟨2, _⟩ => show win0_2.index (lastTile (i 0)) 2 * 256 ≤ (i 2).val ∧ (i 2).val < win0_2.index (lastTile (i 0)) 2 * 256 + 256
                rw [i2]; omega

/-- THE SECOND OUTPUT ARRAY after the region: per half of the rows, the sum of squares. -/
theorem regionSquares : RegionSquares m := fun c =>
  (dats m 0 c).arrAt_eq_of_cover 3 (GQ m c) (flushedQ m c) fun i => by
    have hi0 : (i 0).val < 2 := (i 0).isLt
    have hi1 : (i 1).val < 1 := (i 1).isLt
    have hi2 : (i 2).val < 1 := (i 2).isLt
    refine ⟨lastTile (i 0), (flush0_3 _).mpr (by show ((i 0).val * 16 + 15) % 16 = 15; omega), ?_⟩
    show i ∈ ((View.whole main_v1_1).slice (win0_3.rect (lastTile (i 0)))).set
    rw [View.set_slice_whole, Rect.mem_set_unit]
    obtain ⟨-, -, -, i0, i1, i2⟩ := idxO (lastTile (i 0))
    have hv : (lastTile (i 0)).val = (i 0).val * 16 + 15 := rfl
    intro a
    match a with
    | ⟨0, _⟩ => show win0_3.index (lastTile (i 0)) 0 * 1 ≤ (i 0).val ∧ (i 0).val < win0_3.index (lastTile (i 0)) 0 * 1 + 1
                rw [i0, hv]; omega
    | ⟨1, _⟩ => show win0_3.index (lastTile (i 0)) 1 * 1 ≤ (i 1).val ∧ (i 1).val < win0_3.index (lastTile (i 0)) 1 * 1 + 1
                rw [i1]; omega
    | ⟨2, _⟩ => show win0_3.index (lastTile (i 0)) 2 * 1 ≤ (i 2).val ∧ (i 2).val < win0_3.index (lastTile (i 0)) 2 * 1 + 1
                rw [i2]; omega

end Cert.CenterLoss.Ker

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.KernelTail.lean ====
/-
  The one-pass program: from what its region leaves in its two output arrays to its result.
-/
import proofs.«430246_j9388798509687_3_alg».proof.Proof.KernelIface
import proofs.«430246_j9388798509687_3_alg».proof.Proof.LibHostRead
import Idealize.ShloMosaic.Lib.StableHlo.Run
import Idealize.ShloMosaic.Lib.ValueLayout
import Idealize.ShloMosaic.Lib.ValueIdxRank1

noncomputable section

open scoped BigOperators

namespace Cert.CenterLoss.Ker

open Cert.KernelIdeal Cert.KernelIdeal.Gen Idealize.ShloMosaic Idealize.ShloMosaic.TcCoe Idealize.SL.Sem
open Idealize.ShloMosaic.ValueIdx Cert.CenterLoss

/-! ## The tail's stages as functions of the two region arrays and the class words -/

/-- The counts: ones scatter-added into 64 zeros at the class words, then clamped below by one. -/
def tCounts (L : IVec S262144 32) : FVec Ideal S64 .f32 :=
  maximumf
    (Host.scatterAdd (F := Ideal) scatter_S64_S262144x1_S262144_n_0_0_1
      (broadcastInDim S64 ![] bcast_S_S64 (constant (F := Ideal) S_ .f32 0x00000000#32))
      (broadcastInDim S262144x1 ![0] bcast_S262144_S262144x1_0 L)
      (broadcastInDim S262144 ![] bcast_S_S262144 (constant (F := Ideal) S_ .f32 0x3F800000#32)))
    (broadcastInDim S64 ![] bcast_S_S64 (constant (F := Ideal) S_ .f32 0x3F800000#32))

/-- The class sums: the two halves of the first region array, added. -/
def tHalves (A : FVec Ideal S2x64x256 .f32) : FVec Ideal S64x256 .f32 :=
  addf
    (shapeCast S64x256 (extractStridedSlice S1x64x256 ![0, 0, 0] A slices_S2x64x256_S1x64x256_0_0_0) shapeCasts_S1x64x256_S64x256)
    (shapeCast S64x256 (extractStridedSlice S1x64x256 ![1, 0, 0] A slices_S2x64x256_S1x64x256_1_0_0) shapeCasts_S1x64x256_S64x256)

/-- The sum of all squares: the two halves of the second region array, added. -/
def tSquares (B : FVec Ideal S2x1x1 .f32) : FVec Ideal S_ .f32 :=
  addf
    (shapeCast S_ (extractStridedSlice S1x1x1 ![0, 0, 0] B slices_S2x1x1_S1x1x1_0_0_0) shapeCasts_S1x1x1_S_)
    (shapeCast S_ (extractStridedSlice S1x1x1 ![1, 0, 0] B slices_S2x1x1_S1x1x1_1_0_0) shapeCasts_S1x1x1_S_)

/-- The classes' squared norms: the squares of the class sums, summed over the lanes. -/
def tNorms (A : FVec Ideal S2x64x256 .f32) : FVec Ideal S64 .f32 :=
  Host.reduceAdd (F := Ideal) (mulf (tHalves A) (tHalves A)) (constant (F := Ideal) S_ .f32 0x00000000#32) reducesTo_S64x256_S64_d1 h_S_

/-- The squared norms over the clamped counts. -/
def tQuot (A : FVec Ideal S2x64x256 .f32) (L : IVec S262144 32) : FVec Ideal S64x1 .f32 :=
  Host.divf (F := Ideal) (broadcastInDim S64x1 ![0] bcast_S64_S64x1_0 (tNorms A)) (broadcastInDim S64x1 ![0] bcast_S64_S64x1_0 (tCounts L))

/-- The tail: all squares, less the sum over the classes of the quotients, over the number of entries. -/
def tFn (A : FVec Ideal S2x64x256 .f32) (B : FVec Ideal S2x1x1 .f32) (L : IVec S262144 32) : FVec Ideal S_ .f32 :=
  Host.divf (F := Ideal)
    (subf (tSquares B)
      (Host.reduceAdd (F := Ideal) (tQuot A L) (constant (F := Ideal) S_ .f32 0x00000000#32) reducesTo_S64x1_S_d0_1 h_S_))
    (constant (F := Ideal) S_ .f32 0x4C800000#32)

set_option maxHeartbeats 1000000 in
/-- What the tail's operations leave in the result buffer, from any contents: the tail function of the two region arrays
    and the class words. -/
theorem after_tail (W : Valuation τ sig (Elt Ideal)) :
    StableHlo.after (hostOps1 (F := Ideal)) W (Proc.devRef .tc main_v25)
      = tFn (W (Proc.devRef .tc main_v1_0)) (W (Proc.devRef .tc main_v1_1)) (W (Proc.devRef .tc main_arg1)) := by
  simp only [hostOps1]
  after_results
  rfl

/-- The class sums at class `k`, lane `d`: the two halves' entries added. -/
theorem tHalves_apply (A : FVec Ideal S2x64x256 .f32) (k : Fin 64) (d : Fin 256) :
    tHalves A (ix2 k d) = A (ix3 0 k d) + A (ix3 1 k d) := by
  unfold tHalves
  rw [addf_apply, shapeCast_1ab_ab_apply, shapeCast_1ab_ab_apply]
  exact congrArg₂ (· + ·)
    (extractStridedSlice_apply ![0, 0, 0] A slices_S2x64x256_S1x64x256_0_0_0 (ix3 (0 : Fin 1) k d) (ix3 (0 : Fin 2) k d)
      (fun a => match a with | ⟨0, _⟩ => rfl | ⟨1, _⟩ => (Nat.zero_add _).symm | ⟨2, _⟩ => (Nat.zero_add _).symm))
    (extractStridedSlice_apply ![1, 0, 0] A slices_S2x64x256_S1x64x256_1_0_0 (ix3 (0 : Fin 1) k d) (ix3 (1 : Fin 2) k d)
      (fun a => match a with | ⟨0, _⟩ => rfl | ⟨1, _⟩ => (Nat.zero_add _).symm | ⟨2, _⟩ => (Nat.zero_add _).symm))

/-- The row-major position of the one index of the rank-zero shape is that of the one index of [1, 1, 1]. -/
theorem rowMajor_unit (i : S_.Idx) : (S1x1x1.rowMajor (ix3 (0 : Fin 1) (0 : Fin 1) (0 : Fin 1))).val = (S_.rowMajor i).val := by
  have h := (S_.rowMajor i).isLt
  have h1 : S_.numel = 1 := by decide
  rw [Shape.rowMajor_val_three]
  show (0 * 1 + 0) * 1 + 0 = (S_.rowMajor i).val
  omega

/-- The sum of all squares: the second region array's two entries added. -/
theorem tSquares_apply (B : FVec Ideal S2x1x1 .f32) (i : S_.Idx) :
    tSquares B i = B (ix3 0 0 0) + B (ix3 1 0 0) := by
  unfold tSquares
  rw [addf_apply]
  rw [shapeCast_apply _ shapeCasts_S1x1x1_S_ i (ix3 (0 : Fin 1) (0 : Fin 1) (0 : Fin 1)) (rowMajor_unit i),
      shapeCast_apply _ shapeCasts_S1x1x1_S_ i (ix3 (0 : Fin 1) (0 : Fin 1) (0 : Fin 1)) (rowMajor_unit i)]
  exact congrArg₂ (· + ·)
    (extractStridedSlice_apply ![0, 0, 0] B slices_S2x1x1_S1x1x1_0_0_0 (ix3 (0 : Fin 1) (0 : Fin 1) (0 : Fin 1)) (ix3 (0 : Fin 2) (0 : Fin 1) (0 : Fin 1))
      (fun a => match a with | ⟨0, _⟩ => rfl | ⟨1, _⟩ => rfl | ⟨2, _⟩ => rfl))
    (extractStridedSlice_apply ![1, 0, 0] B slices_S2x1x1_S1x1x1_1_0_0 (ix3 (0 : Fin 1) (0 : Fin 1) (0 : Fin 1)) (ix3 (1 : Fin 2) (0 : Fin 1) (0 : Fin 1))
      (fun a => match a with | ⟨0, _⟩ => rfl | ⟨1, _⟩ => rfl | ⟨2, _⟩ => rfl))

/-- The classes' squared norms at class `k`: the sum over the 256 lanes of the squares of the class sums. -/
theorem tNorms_apply (A : FVec Ideal S2x64x256 .f32) (k : Fin 64) :
    tNorms A (ix1 k) = ∑ d : Fin 256, (A (ix3 0 k d) + A (ix3 1 k d)) * (A (ix3 0 k d) + A (ix3 1 k d)) := by
  unfold tNorms
  show Ideal.hostReduceAdd reducesTo_S64x256_S64_d1 (mulf (tHalves A) (tHalves A)) (Ideal.ofBits .f32 0x00000000#32) (ix1 k) = _
  rw [Ideal.hostReduceAdd_single reducesTo_S64x256_S64_d1 (by decide : S64x256.Reduces [1] S64), Ideal.ofBits_zero_f32, zero_add]
  show ∑ d : Fin 256, mulf (tHalves A) (tHalves A) ((by decide : S64x256.Reduces [1] S64).lift (ix1 k) d) = _
  refine Finset.sum_congr rfl fun d _ => ?_
  have e : (by decide : S64x256.Reduces [1] S64).lift (ix1 k) d = ix2 k d := by
    funext c; match c with | ⟨0, _⟩ => exact Fin.ext rfl | ⟨1, _⟩ => exact Fin.ext rfl
  rw [e, mulf_apply, tHalves_apply]

/-- The quotients at class `k`: the squared norm over the clamped count. -/
theorem tQuot_apply (A : FVec Ideal S2x64x256 .f32) (L : IVec S262144 32) (k : Fin 64) (u : Fin 1) :
    tQuot A L (ix2 k u) = Ideal.div (tNorms A (ix1 k)) (tCounts L (ix1 k)) := by
  unfold tQuot
  rw [hostDivf_apply,
      broadcastInDim_apply (![0] : Fin 1 → Fin 2) bcast_S64_S64x1_0 (tNorms A) (ix2 k u) (ix1 k) (fun a => match a with | ⟨0, _⟩ => rfl),
      broadcastInDim_apply (![0] : Fin 1 → Fin 2) bcast_S64_S64x1_0 (tCounts L) (ix2 k u) (ix1 k) (fun a => match a with | ⟨0, _⟩ => rfl)]

/-- The scatter's window coordinate on the one operand axis is zero: the axis is an inserted one. -/
theorem scatter_window (j : S262144.Idx) (a : Fin S64.rank) :
    scatter_S64_S262144x1_S262144_n_0_0_1.window j a = 0 := by
  obtain rfl : a = (0 : Fin 1) := Subsingleton.elim _ _
  unfold ScatterDims.window
  rw [dif_neg (by decide)]

/-- The scatter's start on the one operand axis for update `j`: the index word of row `j`, read signed. -/
theorem scatter_start (idx : IVec S262144x1 32) (j : S262144.Idx) (a : Fin S64.rank) :
    scatter_S64_S262144x1_S262144_n_0_0_1.start j idx a = (idx (ix2 (j 0) 0)).toInt := by
  obtain rfl : a = (0 : Fin 1) := Subsingleton.elim _ _
  unfold ScatterDims.start
  rw [dif_pos (by decide)]
  refine congrArg (fun q => (idx q).toInt) ?_
  funext b
  match b with
  | ⟨0, _⟩ => exact Fin.ext rfl
  | ⟨1, _⟩ => exact Fin.ext rfl

/-- Update `j` lands on class `k` exactly when row `j`'s index word is `k`. -/
theorem scatter_landing (idx : IVec S262144x1 32) (j : S262144.Idx) (k : Fin 64) :
    scatter_S64_S262144x1_S262144_n_0_0_1.resultIdx? j idx = some (ix1 k) ↔ (idx (ix2 (j 0) 0)).toNat = k.val := by
  rw [← toInt_lands_iff _ (K := 64) (by norm_num) (by have := k.isLt; omega)]
  unfold ScatterDims.resultIdx?
  have hs : ((S64.size (0 : Fin 1) : ℕ) : ℤ) = 64 := rfl
  constructor
  · intro e
    split at e
    · rename_i h
      have h0 := h (0 : Fin 1)
      rw [scatter_start, scatter_window, hs] at h0
      have e1 : (scatter_S64_S262144x1_S262144_n_0_0_1.start j idx (0 : Fin 1)
          + ((scatter_S64_S262144x1_S262144_n_0_0_1.window j (0 : Fin 1) : ℕ) : ℤ)).toNat = k.val :=
        congrArg (fun f : S64.Idx => (f (0 : Fin 1)).val) (Option.some.inj e)
      rw [scatter_start, scatter_window] at e1
      simp only [Nat.cast_zero, add_zero] at h0 e1
      exact ⟨h0.1, h0.2, e1⟩
    · exact absurd e (by simp)
  · intro h
    rw [dif_pos (fun a => by
      obtain rfl : a = (0 : Fin 1) := Subsingleton.elim _ _
      rw [scatter_start, scatter_window, hs]
      simp only [Nat.cast_zero, add_zero]
      exact ⟨h.1, h.2.1⟩)]
    refine congrArg some (funext fun a => ?_)
    obtain rfl : a = (0 : Fin 1) := Subsingleton.elim _ _
    refine Fin.ext ?_
    show (scatter_S64_S262144x1_S262144_n_0_0_1.start j idx (0 : Fin 1)
        + ((scatter_S64_S262144x1_S262144_n_0_0_1.window j (0 : Fin 1) : ℕ) : ℤ)).toNat = k.val
    rw [scatter_start, scatter_window]
    simp only [Nat.cast_zero, add_zero]
    exact h.2.2

/-- The clamped count of class `k`: one per row whose class word is `k`, clamped below by one. -/
theorem tCounts_apply (L : IVec S262144 32) (k : Fin 64) : tCounts L (ix1 k) = countMax L k.val := by
  unfold tCounts countMax
  rw [maximumf_apply]
  refine congrArg₂ max ?_ rfl
  show (Ideal.ofBits .f32 0x00000000#32 : EReal)
      + ∑ j ∈ Finset.univ.filter (fun j : S262144.Idx =>
          scatter_S64_S262144x1_S262144_n_0_0_1.resultIdx? j (broadcastInDim S262144x1 ![0] bcast_S262144_S262144x1_0 L) = some (ix1 k)),
        one32 = count L k.val
  rw [Ideal.ofBits_zero_f32, zero_add, Finset.sum_filter]
  unfold count
  rw [← Equiv.sum_comp (idxEquiv1 (n := 262144)).symm]
  refine Finset.sum_congr rfl fun i _ => ?_
  refine if_congr ?_ rfl rfl
  rw [scatter_landing]
  show (broadcastInDim S262144x1 ![0] bcast_S262144_S262144x1_0 L (ix2 i (0 : Fin 1))).toNat = k.val ↔ _
  rw [broadcastInDim_apply (![0] : Fin 1 → Fin 2) bcast_S262144_S262144x1_0 L (ix2 i (0 : Fin 1)) (ix1 i) (fun a => match a with | ⟨0, _⟩ => rfl)]
  rfl

/-- The tail at its one index: all squares, less the sum over the 64 classes of the squared norms over the clamped counts,
    over the number of entries. -/
theorem tFn_apply (A : FVec Ideal S2x64x256 .f32) (B : FVec Ideal S2x1x1 .f32) (L : IVec S262144 32) (i : S_.Idx) :
    tFn A B L i = Ideal.div
      ((B (ix3 0 0 0) + B (ix3 1 0 0))
        - ∑ k : Fin 64, Ideal.div (∑ d : Fin 256, (A (ix3 0 k d) + A (ix3 1 k d)) * (A (ix3 0 k d) + A (ix3 1 k d))) (countMax L k.val))
      denom32 := by
  unfold tFn
  rw [hostDivf_apply, subf_apply, tSquares_apply]
  refine congrArg₂ Ideal.div (congrArg₂ (· - ·) rfl ?_) rfl
  show Ideal.hostReduceAdd reducesTo_S64x1_S_d0_1 (tQuot A L) (Ideal.ofBits .f32 0x00000000#32) i = _
  rw [Ideal.hostReduceAdd_total reducesTo_S64x1_S_d0_1 (fun b => b.elim0), Ideal.ofBits_zero_f32, zero_add, sum_idx2]
  refine Finset.sum_congr rfl fun k _ => ?_
  rw [Fin.sum_univ_one, tQuot_apply, tNorms_apply, tCounts_apply]

/-- With the two region arrays at the half sums and the half squares, the tail's value is the one-pass loss. -/
theorem tFn_of (A : FVec Ideal S2x64x256 .f32) (B : FVec Ideal S2x1x1 .f32) (x : SX.Idx → EReal) (lab : SL.Idx → BitVec 32)
    (hA0 : ∀ (k : Fin 64) (d : Fin 256), A (ix3 0 k d) = segSum x lab 0 131072 k.val d)
    (hA1 : ∀ (k : Fin 64) (d : Fin 256), A (ix3 1 k d) = segSum x lab 131072 262144 k.val d)
    (hB0 : B (ix3 0 0 0) = sqSum x 0 131072) (hB1 : B (ix3 1 0 0) = sqSum x 131072 262144) :
    tFn A B lab = fun _ => kerVal x lab := by
  funext i
  rw [tFn_apply, hB0, hB1]
  unfold kerVal kerNum halvesSum
  refine congrArg₂ Ideal.div (congrArg₂ (· - ·) rfl (Finset.sum_congr rfl fun k _ => ?_)) rfl
  refine congrArg₂ Ideal.div (Finset.sum_congr rfl fun d _ => ?_) rfl
  rw [hA0, hA1]

/-- The same with the arrays as the region leaves them: half `h` of the rows is the range [h · 131072, h · 131072 + 131072). -/
theorem tFn_region (x : SX.Idx → EReal) (lab : SL.Idx → BitVec 32) :
    tFn (fun j => segSum x lab ((j 0).val * 131072) ((j 0).val * 131072 + 131072) (j 1).val (j 2))
        (fun j => sqSum x ((j 0).val * 131072) ((j 0).val * 131072 + 131072)) lab
      = fun _ => kerVal x lab :=
  tFn_of _ _ x lab
    (fun k d => by
      show segSum x lab ((0 : Fin 2).val * 131072) ((0 : Fin 2).val * 131072 + 131072) k.val d = _
      rfl)
    (fun k d => by
      show segSum x lab ((1 : Fin 2).val * 131072) ((1 : Fin 2).val * 131072 + 131072) k.val d = _
      rfl)
    (by
      show sqSum x ((0 : Fin 2).val * 131072) ((0 : Fin 2).val * 131072 + 131072) = _
      rfl)
    (by
      show sqSum x ((1 : Fin 2).val * 131072) ((1 : Fin 2).val * 131072 + 131072) = _
      rfl)

variable (m : (ℓ : Loc nD τ sig) → Buf (Elt Ideal) ℓ) (ρ : Dev nD → PrngReg)

/-- The result buffer after the tail, from the region's exit contents: the one-pass loss of the launch arguments. The
    two region arrays are read at what the region leaves in them, the class words at their launch contents (no
    operation writes them). -/
theorem tail_eq (h2 : RegionSums m) (h3 : RegionSquares m) (c : Dev nD) :
    Pipeline.afterTail₀ cfgs (dats (F := Ideal) m) 0 (V0 m) [hostOps1] c main_v25
      = (fun _ => kerVal (xOf m c) (labOf m c)) := by
  unfold Pipeline.afterTail₀
  rw [List.flatten_cons, List.flatten_nil, List.append_nil]
  refine ((after_tail _).trans (congr (congr (congrArg tFn
      ((Pipeline.withArrays_arr spec0 launch0.win.arr_inj c _ _ 2).trans (h2 c)))
      ((Pipeline.withArrays_arr spec0 launch0.win.arr_inj c _ _ 3).trans (h3 c)))
      ((Pipeline.withArrays_of_ne _ c (V0 m c) _ main_arg1
        (by exact (by decide : ∀ w, Pipeline.arrRef spec0 w ≠ main_arg1))).trans (V_main_arg1 m c)))).trans ?_
  exact tFn_region (xOf m c) (labOf m c)

/-- Given the region's two arrays, the program's run ends with its result at the one-pass loss of its arguments,
    the arguments unchanged. -/
theorem run (h2 : RegionSums m) (h3 : RegionSquares m) :
    θ_run (defs (F := Ideal)) (onTc (τ := τ) (main (F := Ideal))) ⟨m, fun _ => 0, ρ⟩ fun r => ∀ c : Dev nD,
      r.2.mem ((c.tc : Thread nD τ).loc main_v25) = (fun _ => kerVal (xOf m c) (labOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c =>
      ⟨((h c).2 main_v25 (Pipeline.mem_restRefs_of main_v25 (by decide) (by decide))).trans (tail_eq m h2 h3 c),
       ((h c).1 1).trans (((dats m 0 c).arrAt_in 1 rfl _).trans ((A_eq m c 1).trans (V_main_arg0 m c))),
       ((h c).2 main_arg1 (Pipeline.mem_restRefs_of main_arg1 (by decide) (by decide))).trans (W_main_arg1 m (dats m) c)⟩)
    (run_main m ρ)

end Cert.CenterLoss.Ker

end
-- ==== Proof.lean ====
/-
  The certificate of the center loss computed in one pass.

  Under the precondition (every feature entry finite, every class word in [0, 64)):
    * the one-pass program's frames are the generated ones, and the two-pass program's frame is its run with the
      result dropped;
    * the idealization rewrote nothing, so there is nothing to preserve;
    * the one-pass program ends at `kerVal` of its arguments (its region leaves the per-half class sums and sums of
      squares, the host tail combines them), the two-pass program at `refVal` of its arguments, and the two are
      equal by the variance decomposition  Σᵢ ‖xᵢ − c(yᵢ)‖² = Σᵢ ‖xᵢ‖² − Σₖ ‖Sₖ‖² / max(nₖ, 1).
-/
import proofs.«430246_j9388798509687_3_alg».proof.Defs
import proofs.«430246_j9388798509687_3_alg».proof.Proof.Gen.Kernel
import proofs.«430246_j9388798509687_3_alg».proof.Proof.Gen.Kernel.Skeleton
import proofs.«430246_j9388798509687_3_alg».proof.Proof.Gen.Kernel.Launch
import proofs.«430246_j9388798509687_3_alg».proof.Proof.Gen.Kernel.Points
import proofs.«430246_j9388798509687_3_alg».proof.Proof.Gen.Kernel.Frame
import proofs.«430246_j9388798509687_3_alg».proof.Proof.Gen.KernelIdeal
import proofs.«430246_j9388798509687_3_alg».proof.Proof.Gen.KernelIdeal.Skeleton
import proofs.«430246_j9388798509687_3_alg».proof.Proof.Gen.KernelIdeal.Launch
import proofs.«430246_j9388798509687_3_alg».proof.Proof.Gen.KernelIdeal.Points
import proofs.«430246_j9388798509687_3_alg».proof.Proof.Gen.KernelIdeal.Frame
import proofs.«430246_j9388798509687_3_alg».proof.Proof.Gen.ReferenceIdeal
import proofs.«430246_j9388798509687_3_alg».proof.Proof.Gen.Pre_finite_inputs
import proofs.«430246_j9388798509687_3_alg».proof.Proof.Gen.ReferenceIdeal.Run
import proofs.«430246_j9388798509687_3_alg».proof.Proof.Gen.ReferenceIdeal.Read
import proofs.«430246_j9388798509687_3_alg».proof.Proof.Algebra
import proofs.«430246_j9388798509687_3_alg».proof.Proof.PreDecode
import proofs.«430246_j9388798509687_3_alg».proof.Proof.RefValue
import proofs.«430246_j9388798509687_3_alg».proof.Proof.KernelRegion
import proofs.«430246_j9388798509687_3_alg».proof.Proof.KernelTail
import Idealize.ShloMosaic.Adequacy
import Idealize.ShloMosaic.Init

noncomputable section

namespace Cert.Proof

open Idealize.ShloMosaic Idealize.SL.Sem

/-- The one-pass program as printed runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- Its idealization runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The two-pass program runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The two programs end with equal results: `kerVal` and `refVal` of arguments that agree, equal by the variance
    decomposition under the precondition's two facts. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdec := fun c : Dev Cert.KernelIdeal.nD =>
    Cert.CenterLoss.of_pre (Cert.CenterLoss.Ker.xOf m c) (Cert.CenterLoss.Ker.labOf m c) (hpre c)
  refine ⟨fun c => (fun _ => Cert.CenterLoss.kerVal (Cert.CenterLoss.Ker.xOf m c) (Cert.CenterLoss.Ker.labOf m c)),
    Cert.CenterLoss.Ker.run m ρ (Cert.CenterLoss.Ker.regionSums m) (Cert.CenterLoss.Ker.regionSquares m), ?_⟩
  refine (θ_run Cert.ReferenceIdeal.defs _ _).mono (fun _ h c => ⟨?_, (h c).2⟩)
    (Cert.CenterLoss.Ref.run m' ρ' (fun c i => by rw [(hagree c).2]; exact (hdec c).2 i))
  rw [(h c).1, (hagree c).1, (hagree c).2]
  funext _
  exact (Cert.CenterLoss.kerVal_eq_refVal _ _ (hdec c).1 (hdec c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
